-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x128x128 : Shape := ⟨5, ![4, 64, 32, 128, 128]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S4x64x32x128x128 : S_.BroadcastsInDim S4x64x32x128x128 (![] : Fin 0 → Fin S4x64x32x128x128.rank)
  reducesTo_S4x64x32x128x128_S_d0_1_2_3_4 : S4x64x32x128x128.ReducesTo [0, 1, 2, 3, 4] S_
  h_S_ : 0 < S_.numel
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x64x32x128x128 .f32) (main_arg1 : FVec F S4x64 .f32) (main_arg2 : FVec F S4 .f32) (main_arg3 : FVec F S64x4 .f32) (main_arg4 : FVec F S64 .f32) : IVec S_ 1 :=
  let main_v0 : FVec F S4x64x32x128x128 .f32 := Host.absf main_arg0
  let main_cst : FVec F S_ .f32 := constant S_ .f32 0x7F800000#32
  let main_v1 : FVec F S4x64x32x128x128 .f32 := broadcastInDim S4x64x32x128x128 ![] bcast_S_S4x64x32x128x128 main_cst
  let main_v2 : IVec S4x64x32x128x128 1 := cmpf .olt main_v0 main_v1
  let main_c : IVec S_ 1 := constantI S_ 1 1#1
  let main_v3 : IVec S_ 1 := (fun x v => Host.reduce IntOp.andi x v reducesTo_S4x64x32x128x128_S_d0_1_2_3_4 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S4x64x32x128x128 : Shape := ⟨5, ![4, 64, 32, 128, 128]⟩
abbrev S4x64 : Shape := ⟨2, ![4, 64]⟩
abbrev S4 : Shape := ⟨1, ![4]⟩
abbrev S64x4 : Shape := ⟨2, ![64, 4]⟩
abbrev S64 : Shape := ⟨1, ![64]⟩
abbrev S4x64x1x128x128 : Shape := ⟨5, ![4, 64, 1, 128, 128]⟩
abbrev S_ : Shape := ⟨0, ![]⟩
abbrev S4x4 : Shape := ⟨2, ![4, 4]⟩
abbrev S1x4 : Shape := ⟨2, ![1, 4]⟩
abbrev S1x64 : Shape := ⟨2, ![1, 64]⟩
abbrev S1x4x32x128x128 : Shape := ⟨5, ![1, 4, 32, 128, 128]⟩
abbrev S1x4x1x1x1 : Shape := ⟨5, ![1, 4, 1, 1, 1]⟩

abbrev nBuf : Space → Nat
  | .hbm => 40
  | .vmem => 9
  | .smem => 0
  | _ => 0

abbrev bufTy : (tb : Table) → Fin (tcTables nBuf tb) → BufTy
  | .hbm, ⟨0, _⟩ => ⟨S4x64x32x128x128, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S_, .f32⟩
  | .hbm, ⟨11, _⟩ => ⟨S4x64, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S4x64, .f32⟩
  | .hbm, ⟨20, _⟩ => ⟨S4x4, .f32⟩
  | .hbm, ⟨21, _⟩ => ⟨S1x4, .f32⟩
  | .hbm, ⟨22, _⟩ => ⟨S4x4, .f32⟩
  | .hbm, ⟨23, _⟩ => ⟨S4x4, .f32⟩
  | .hbm, ⟨24, _⟩ => ⟨S_, .f32⟩
  | .hbm, ⟨25, _⟩ => ⟨S4x4, .f32⟩
  | .hbm, ⟨26, _⟩ => ⟨S4x4, .f32⟩
  | .hbm, ⟨27, _⟩ => ⟨S4x64, .f32⟩
  | .hbm, ⟨28, _⟩ => ⟨S1x64, .f32⟩
  | .hbm, ⟨29, _⟩ => ⟨S4x64, .f32⟩
  | .hbm, ⟨30, _⟩ => ⟨S4x64, .f32⟩
  | .hbm, ⟨31, _⟩ => ⟨S4x64, .f32⟩
  | .hbm, ⟨32, _⟩ => ⟨S4x64, .f32⟩
  | .hbm, ⟨33, _⟩ => ⟨S_, .f32⟩
  | .hbm, ⟨34, _⟩ => ⟨S4x64, .f32⟩
  | .hbm, ⟨35, _⟩ => ⟨S4x64, .f32⟩
  | .hbm, ⟨36, _⟩ => ⟨S_, .f32⟩
  | .hbm, ⟨37, _⟩ => ⟨S4x64, .f32⟩
  | .hbm, ⟨38, _⟩ => ⟨S4x64, .f32⟩
  | .hbm, ⟨39, _⟩ => ⟨S4x64x32x128x128, .f32⟩
  | .local _ .vmem, ⟨0, _⟩ => ⟨S4x64x1x128x128, .f32⟩
  | .local _ .vmem, ⟨1, _⟩ => ⟨S4x64x1x128x128, .f32⟩
  | .local _ .vmem, ⟨2, _⟩ => ⟨S4x64, .f32⟩
  | .local _ .vmem, ⟨3, _⟩ => ⟨S4x64, .f32⟩
  | .local _ .vmem, ⟨4, _⟩ => ⟨S1x4x32x128x128, .f32⟩
  | .local _ .vmem, ⟨5, _⟩ => ⟨S1x4x32x128x128, .f32⟩
  | .local _ .vmem, ⟨6, _⟩ => ⟨S4x64, .f32⟩
  | .local _ .vmem, ⟨7, _⟩ => ⟨S1x4x32x128x128, .f32⟩
  | .local _ .vmem, ⟨8, _⟩ => ⟨S1x4x32x128x128, .f32⟩
  | _, _ => ⟨S4x64x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 16], ![false, false]⟩

def k1_off1 (i : grid1.Coords) : Fin 2 → Nat :=
  let arg0 : BitVec 32 := BitVec.ofNat 32 (i 0).val
  let v2 : Index := Scalar.indexCast arg0
  let arg1 : BitVec 32 := BitVec.ofNat 32 (i 1).val
  let c4_i32 : BitVec 32 := 4#32
  let v1 : BitVec 32 := Scalar.muli arg1 c4_i32
  let v3 : Index := Scalar.indexCast v1
  ![v2.toNat, v3.toNat]
def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 2 → Memref sig .tc .vmem S1x4x32x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x4x32x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S4x64_S4x64_0_0 : ∀ a, (![0, 0] : Fin 2 → Nat) a + S4x64.size a ≤ S4x64.size a
  h_S4x64 : 0 < S4x64.numel
  inb_S4x64x1x128x128_S4x64x1x128x128_0_0_0_0_0 : ∀ a, (![0, 0, 0, 0, 0] : Fin 5 → Nat) a + S4x64x1x128x128.size a ≤ S4x64x1x128x128.size a
  h_S4x64x1x128x128 : 0 < S4x64x1x128x128.numel
  shapeCasts_S4x64_S4x64 : S4x64.ShapeCasts S4x64
  reduces_S4x64x1x128x128_S4x64 : S4x64x1x128x128.Reduces [2, 3, 4] S4x64
  bcast_S_S4x64 : S_.BroadcastsInDim S4x64 (![] : Fin 0 → Fin S4x64.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  inb_S1x4x32x128x128_S1x4x32x128x128_0_0_0_0_0 : ∀ a, (![0, 0, 0, 0, 0] : Fin 5 → Nat) a + S1x4x32x128x128.size a ≤ S1x4x32x128x128.size a
  h_S1x4x32x128x128 : 0 < S1x4x32x128x128.numel
  h_S1x4 : 0 < S1x4.numel
  shapeCasts_S1x4_S4 : S1x4.ShapeCasts S4
  shapeCasts_S4_S1x4x1x1x1 : S4.ShapeCasts S1x4x1x1x1
  broadcasts_S1x4x1x1x1_S1x4x32x128x128 : S1x4x1x1x1.Broadcasts S1x4x32x128x128
  dot_S4x64_S4x64_S4x4_1_1_0_0_n_n_wf : DotDims.WF S4x64 S4x64 S4x4 [1] [1] [0] [0] [] []
  dot_S4x4_S64x4_S4x64_1_1_0_0_n_n_wf : DotDims.WF S4x4 S64x4 S4x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x1x128x128.size a ≤ S4x64x32x128x128.size a
  hwx0_0 : ∀ i : grid0.Coords, EltTy.bits .f32 = 32 ∨ (Rect.block (s := S4x64x32x128x128) S4x64x1x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hrank1 : 0 < grid1.rank
  k1_off1_inb : ∀ i : grid1.Coords, ∀ a, (k1_off1 i) a + S1x4.size a ≤ S4x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x32x128x128.size a ≤ S4x64x32x128x128.size a
  hwx1_0 : ∀ i : grid1.Coords, EltTy.bits .f32 = 32 ∨ (Rect.block (s := S4x64x32x128x128) S1x4x32x128x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x32x128x128.size a ≤ S4x64x32x128x128.size a
  hwx1_2 : ∀ i : grid1.Coords, EltTy.bits .f32 = 32 ∨ (Rect.block (s := S4x64x32x128x128) S1x4x32x128x128.size (cc1_transform_2 i) (hinb1_2 i)).WholeWords (EltTy.packing .f32)

variable [Facts₀]

def dot_S4x64_S4x64_S4x4_1_1_0_0_n_n : DotDims S4x64 S4x64 S4x4 where
  lhsContracting := [1]
  rhsContracting := [1]
  lhsNonContracting := [0]
  rhsNonContracting := [0]
  lhsBatch := []
  rhsBatch := []
  wf := dot_S4x64_S4x64_S4x4_1_1_0_0_n_n_wf
def dot_S4x4_S64x4_S4x64_1_1_0_0_n_n : DotDims S4x4 S64x4 S4x64 where
  lhsContracting := [1]
  rhsContracting := [1]
  lhsNonContracting := [0]
  rhsNonContracting := [0]
  lhsBatch := []
  rhsBatch := []
  wf := dot_S4x4_S64x4_S4x64_1_1_0_0_n_n_wf

abbrev win0_0 : Pipeline.Window sig grid0 :=
  Pipeline.Window.ofSpec (Memref.whole main_arg0) S4x64x1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x64.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x4x32x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x4x32x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x64x32x128x128 : Shape := ⟨5, ![4, 64, 32, 128, 128]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩
abbrev S4x64x1x1x1 : Shape := ⟨5, ![4, 64, 1, 1, 1]⟩
abbrev S4x4 : Shape := ⟨2, ![4, 4]⟩
abbrev S1x4 : Shape := ⟨2, ![1, 4]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x64x32x128x128, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S_, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64x1x1x1, .f32⟩
  | .hbm, ⟨11, _⟩ => ⟨S4x64x32x128x128, .f32⟩
  | .hbm, ⟨12, _⟩ => ⟨S4x64x32x128x128, .f32⟩
  | .hbm, ⟨13, _⟩ => ⟨S4x64x32x128x128, .f32⟩
  | .hbm, ⟨14, _⟩ => ⟨S_, .f32⟩
  | .hbm, ⟨15, _⟩ => ⟨S4x64, .f32⟩
  | .hbm, ⟨16, _⟩ => ⟨S_, .f32⟩
  | .hbm, ⟨17, _⟩ => ⟨S4x64, .f32⟩
  | .hbm, ⟨18, _⟩ => ⟨S4x64, .f32⟩
  | .hbm, ⟨19, _⟩ => ⟨S4x64, .f32⟩
  | .hbm, ⟨20, _⟩ => ⟨S4x64, .f32⟩
  | .hbm, ⟨21, _⟩ => ⟨S4x4, .f32⟩
  | .hbm, ⟨22, _⟩ => ⟨S1x4, .f32⟩
  | .hbm, ⟨23, _⟩ => ⟨S4x4, .f32⟩
  | .hbm, ⟨24, _⟩ => ⟨S4x4, .f32⟩
  | .hbm, ⟨25, _⟩ => ⟨S_, .f32⟩
  | .hbm, ⟨26, _⟩ => ⟨S4x4, .f32⟩
  | .hbm, ⟨27, _⟩ => ⟨S4x4, .f32⟩
  | .hbm, ⟨28, _⟩ => ⟨S4x64, .f32⟩
  | .hbm, ⟨29, _⟩ => ⟨S1x64, .f32⟩
  | .hbm, ⟨30, _⟩ => ⟨S4x64, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | .hbm, ⟨37, _⟩ => ⟨S_, .f32⟩
  | .hbm, ⟨38, _⟩ => ⟨S4x64, .f32⟩
  | .hbm, ⟨39, _⟩ => ⟨S4x64, .f32⟩
  | .hbm, ⟨40, _⟩ => ⟨S4x64x1x1x1, .f32⟩
  | .hbm, ⟨41, _⟩ => ⟨S4x64x32x128x128, .f32⟩
  | .hbm, ⟨42, _⟩ => ⟨S4x64x32x128x128, .f32⟩
  | _, _ => ⟨S4x64x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  reducesTo_S4x64x32x128x128_S4x64_d2_3_4 : S4x64x32x128x128.ReducesTo [2, 3, 4] S4x64
  h_S_ : 0 < S_.numel
  bcast_S_S4x64 : S_.BroadcastsInDim S4x64 (![] : Fin 0 → Fin S4x64.rank)
  bcast_S4x64_S4x64x1x1x1_0_1 : S4x64.BroadcastsInDim S4x64x1x1x1 (![0, 1] : Fin 2 → Fin S4x64x1x1x1.rank)
  bcast_S4x64x1x1x1_S4x64x32x128x128_0_1_2_3_4 : S4x64x1x1x1.BroadcastsInDim S4x64x32x128x128 (![0, 1, 2, 3, 4] : Fin 5 → Fin S4x64x32x128x128.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S64_S1x64_1 : S64.BroadcastsInDim S1x64 (![1] : Fin 1 → Fin S1x64.rank)
  bcast_S1x64_S4x64_0_1 : S1x64.BroadcastsInDim S4x64 (![0, 1] : Fin 2 → Fin S4x64.rank)
  dot_S4x64_S4x64_S4x4_1_1_0_0_n_n_wf : DotDims.WF S4x64 S4x64 S4x4 [1] [1] [0] [0] [] []
  dot_S4x4_S64x4_S4x64_1_1_0_0_n_n_wf : DotDims.WF S4x4 S64x4 S4x64 [1] [1] [0] [0] [] []

variable [Facts₀]

def dot_S4x64_S4x64_S4x4_1_1_0_0_n_n : DotDims S4x64 S4x64 S4x4 where
  lhsContracting := [1]
  rhsContracting := [1]
  lhsNonContracting := [0]
  rhsNonContracting := [0]
  lhsBatch := []
  rhsBatch := []
  wf := dot_S4x64_S4x64_S4x4_1_1_0_0_n_n_wf
def dot_S4x4_S64x4_S4x64_1_1_0_0_n_n : DotDims S4x4 S64x4 S4x64 where
  lhsContracting := [1]
  rhsContracting := [1]
  lhsNonContracting := [0]
  rhsNonContracting := [0]
  lhsBatch := []
  rhsBatch := []
  wf := dot_S4x4_S64x4_S4x64_1_1_0_0_n_n_wf

class Facts : Prop extends Facts₀ where

variable [Facts]
-- ==== Proof.KHost.lean ====
/- The host operations between the two kernel regions. From the two per-channel sums `S`, `SS` they compute
   `y = sqrt (max (SS / n − (S / n)², 0)) + S / n` (`yK`), and from `y` and the four weight arrays the gate
   `1 / (1 + exp (−((max (y · w1ᵀ + b1, 0)) · w2ᵀ + b2)))` (`gateK`). Read here off the fold of the three host
   stretches: the gate array as the second region finds it is `gateK (yK S SS) w1 b1 w2 b2` of the first region's two
   results and the launch contents of the weights, and the input array is still the launch contents. -/
import proofs.«148139_j79886391705784_1_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo

/-- Deviation plus mean, from the sum and the sum of squares: `sqrt (max (SS/n − (S/n)², 0)) + S/n`, `n = 524288`. -/
def yK (S SS : FVec Ideal S4x64 .f32) : FVec Ideal S4x64 .f32 :=
  addf
    (Host.sqrt (maximumf
      (subf (Host.divf SS (broadcastInDim S4x64 ![] bcast_S_S4x64 (constant S_ .f32 0x49000000#32)))
        (mulf (Host.divf S (broadcastInDim S4x64 ![] bcast_S_S4x64 (constant S_ .f32 0x49000000#32)))
          (Host.divf S (broadcastInDim S4x64 ![] bcast_S_S4x64 (constant S_ .f32 0x49000000#32)))))
      (broadcastInDim S4x64 ![] bcast_S_S4x64 (constant S_ .f32 0x00000000#32))))
    (Host.divf S (broadcastInDim S4x64 ![] bcast_S_S4x64 (constant S_ .f32 0x49000000#32)))

/-- The gate as a function of `y` and the four weight arrays: two dense layers with a rectifier between them and a
    logistic function at the end, as the kernel's host code spells them. -/
def gateK (y : FVec Ideal S4x64 .f32) (x1 : FVec Ideal S4x64 .f32) (x2 : FVec Ideal S4 .f32) (x3 : FVec Ideal S64x4 .f32)
    (x4 : FVec Ideal S64 .f32) : FVec Ideal S4x64 .f32 :=
  Host.divf (broadcastInDim S4x64 ![] bcast_S_S4x64 (constant S_ .f32 0x3F800000#32))
    (addf (broadcastInDim S4x64 ![] bcast_S_S4x64 (constant S_ .f32 0x3F800000#32))
      (Host.exp (Host.negf (addf
        (Host.dotGeneral dot_S4x4_S64x4_S4x64_1_1_0_0_n_n none
          (maximumf (addf (Host.dotGeneral dot_S4x64_S4x64_S4x4_1_1_0_0_n_n none y x1)
              (broadcastInDim S4x4 ![0, 1] bcast_S1x4_S4x4_0_1 (broadcastInDim S1x4 ![1] bcast_S4_S1x4_1 x2)))
            (broadcastInDim S4x4 ![] bcast_S_S4x4 (constant S_ .f32 0x00000000#32))) x3)
        (broadcastInDim S4x64 ![0, 1] bcast_S1x64_S4x64_0_1 (broadcastInDim S1x64 ![1] bcast_S64_S1x64_1 x4))))))

variable (m : (ℓ : Loc nD τ sig) → Buf (Elt Ideal) ℓ) (ρ : Dev nD → PrngReg)

set_option maxHeartbeats 1000000 in
/-- The gate array as the second region finds it. -/
theorem W4_v25 (c : Dev nD) :
    (W4 (F := Ideal) m ρ c (Proc.devRef .tc main_v25) : S4x64.Idx → EReal)
      = gateK (yK (W1 (F := Ideal) m ρ c (Proc.devRef .tc main_v0_0)) (W1 (F := Ideal) m ρ c (Proc.devRef .tc main_v0_1)))
          (m ((c : Thread nD τ).loc main_arg1)) (m ((c : Thread nD τ).loc main_arg2))
          (m ((c : Thread nD τ).loc main_arg3)) (m ((c : Thread nD τ).loc main_arg4)) := by
  show StableHlo.after hostOps1_2 (StableHlo.after hostOps1_1 (StableHlo.after hostOps1 (W1 (F := Ideal) m ρ c)))
    (Proc.devRef .tc main_v25) = _
  after_results_simp
  rw [W1_of_ne m ρ c main_arg1 (by decide), W1_of_ne m ρ c main_arg2 (by decide), W1_of_ne m ρ c main_arg3 (by decide),
    W1_of_ne m ρ c main_arg4 (by decide)]
  rfl

set_option maxHeartbeats 1000000 in
/-- The input array as the second region finds it is the launch contents: no host operation writes it and the first
    region only reads it. -/
theorem W4_arg0 (c : Dev nD) :
    W4 (F := Ideal) m ρ c (Proc.devRef .tc main_arg0) = m ((c : Thread nD τ).loc main_arg0) := by
  show StableHlo.after hostOps1_2 (StableHlo.after hostOps1_1 (StableHlo.after hostOps1 (W1 (F := Ideal) m ρ c)))
    (Proc.devRef .tc main_arg0) = _
  after_results_simp
  exact (W1_arr m ρ c 0).trans (((dat0 (V0 m ρ) c).arrAt_in 0 rfl _).trans (A_eq0 (V0 m ρ) c 0))

end Cert.KernelIdeal.HostGlue

end
-- ==== Proof.LibTrailSums.lean ====
/- Sums over the three trailing axes of a rank-5 array. For an array `x` of extents `[a, b, c, d, e]` and leading
   coordinates `(p, q)`, the indices whose first two coordinates are `(p, q)` are exactly `(p, q, k, l, m)` with
   `k < c`, `l < d`, `m < e`, so the sum of `x` over them is the triple sum `∑ k, ∑ l, ∑ m, x (p, q, k, l, m)`
   (`trail`). At the extended reals a vector reduction by addition over the axes `[2, 3, 4]`, and the host's
   reduce-add over the same axes, are by definition the sum over the indices that drop to `(p, q)`: each is read here
   as `trail` (the host's with its initial value in front). The extents are arbitrary. -/
import Idealize.ShloMosaic.PureOps.Ideal.Laws
import Idealize.ShloMosaic.Lib.ValueIdx
import Mathlib.Algebra.BigOperators.Fin
import Mathlib.Data.Fintype.BigOperators

namespace Cert.LibTrailSums

open Idealize.ShloMosaic Idealize.ShloMosaic.ValueIdx
open scoped BigOperators

variable {a b c d e : Nat}

section Sum
variable {α : Type*} [AddCommMonoid α]

/-- The sum over the three trailing axes at the leading coordinates `(p, q)`. -/
def trail (x : (⟨5, ![a, b, c, d, e]⟩ : Shape).Idx → α) (p : Fin a) (q : Fin b) : α :=
  ∑ k : Fin c, ∑ l : Fin d, ∑ m : Fin e, x (ix5 p q k l m)

/-- The same as one sum over the triples `(k, l, m)`. -/
theorem trail_eq_sum_prod (x : (⟨5, ![a, b, c, d, e]⟩ : Shape).Idx → α) (p : Fin a) (q : Fin b) :
    trail x p q = ∑ t : Fin c × Fin d × Fin e, x (ix5 p q t.1 t.2.1 t.2.2) := by
  unfold trail
  rw [Fintype.sum_prod_type]
  refine Finset.sum_congr rfl fun k _ => ?_
  rw [Fintype.sum_prod_type]

/-- For any map `drop` onto the rank-2 indices that keeps the first two coordinates, the sum over the indices
    dropping to `(p, q)` is the triple sum. -/
theorem sum_filter_eq_trail (drop : (⟨5, ![a, b, c, d, e]⟩ : Shape).Idx → (⟨2, ![a, b]⟩ : Shape).Idx)
    (h0 : ∀ i, (drop i 0).val = (i 0).val) (h1 : ∀ i, (drop i 1).val = (i 1).val)
    (x : (⟨5, ![a, b, c, d, e]⟩ : Shape).Idx → α) (p : Fin a) (q : Fin b) :
    ∑ i ∈ Finset.univ.filter (fun i => drop i = ix2 p q), x i = trail x p q := by
  rw [trail_eq_sum_prod]
  have hp : ∀ i, drop i = ix2 p q → (i 0).val = p.val := fun i hi => by
    rw [← h0 i, hi]; rfl
  have hq : ∀ i, drop i = ix2 p q → (i 1).val = q.val := fun i hi => by
    rw [← h1 i, hi]; rfl
  -- the three trailing coordinates of an index, as a triple
  let tl : (⟨5, ![a, b, c, d, e]⟩ : Shape).Idx → Fin c × Fin d × Fin e := fun i =>
    (⟨(i 2).val, (i 2).isLt⟩, ⟨(i 3).val, (i 3).isLt⟩, ⟨(i 4).val, (i 4).isLt⟩)
  have hinv : ∀ i, drop i = ix2 p q → ix5 p q (tl i).1 (tl i).2.1 (tl i).2.2 = i := fun i hi => by
    funext f
    match f with
    | ⟨0, _⟩ => exact Fin.ext (hp i hi).symm
    | ⟨1, _⟩ => exact Fin.ext (hq i hi).symm
    | ⟨2, _⟩ => rfl
    | ⟨3, _⟩ => rfl
    | ⟨4, _⟩ => rfl
  refine Finset.sum_nbij' tl (fun t => ix5 p q t.1 t.2.1 t.2.2) ?_ ?_ ?_ ?_ ?_
  · intro i _; exact Finset.mem_univ _
  · intro t _
    refine Finset.mem_filter.2 ⟨Finset.mem_univ _, ?_⟩
    funext f
    match f with
    | ⟨0, _⟩ => exact Fin.ext (h0 _)
    | ⟨1, _⟩ => exact Fin.ext (h1 _)
  · intro i hi; exact hinv i (Finset.mem_filter.1 hi).2
  · intro t _; rfl
  · intro i hi; exact congrArg x (hinv i (Finset.mem_filter.1 hi).2).symm

end Sum

/-- A reduction by addition over the axes `[2, 3, 4]` into `[a, b]`, at the extended reals and at `(p, q)`. -/
theorem reduceAdd_apply (h : (⟨5, ![a, b, c, d, e]⟩ : Shape).Reduces [2, 3, 4] ⟨2, ![a, b]⟩)
    (x : (⟨5, ![a, b, c, d, e]⟩ : Shape).Idx → EReal) (p : Fin a) (q : Fin b) :
    Ideal.reduceAdd h x (ix2 p q) = trail x p q :=
  sum_filter_eq_trail h.drop (fun _ => rfl) (fun _ => rfl) x p q

/-- A `vector.multi_reduction <add>` over the axes `[2, 3, 4]`, read at the extended reals at `(p, q)`. -/
theorem multiReduction_add_apply {φ : FTy} (src : FVec Ideal (⟨5, ![a, b, c, d, e]⟩ : Shape) φ) (acc : BitVec φ.bits)
    (h : (⟨5, ![a, b, c, d, e]⟩ : Shape).Reduces [2, 3, 4] ⟨2, ![a, b]⟩) (hφ : FKind.Formats φ)
    (hacc : acc = FKind.add.neutral φ hφ) (p : Fin a) (q : Fin b) :
    multiReduction .add [2, 3, 4] ⟨2, ![a, b]⟩ src acc h hφ hacc (ix2 p q) = trail src p q :=
  reduceAdd_apply h src p q

/-- The host's reduce-add over the axes `[2, 3, 4]`, read at the extended reals at `(p, q)`: the initial value plus
    the triple sum. -/
theorem hostReduceAdd_apply (h : (⟨5, ![a, b, c, d, e]⟩ : Shape).ReducesTo [2, 3, 4] ⟨2, ![a, b]⟩)
    (x : (⟨5, ![a, b, c, d, e]⟩ : Shape).Idx → EReal) (init : EReal) (p : Fin a) (q : Fin b) :
    Ideal.hostReduceAdd h x init (ix2 p q) = init + trail x p q := by
  unfold Ideal.hostReduceAdd
  rw [sum_filter_eq_trail h.drop (fun _ => rfl) (fun _ => rfl) x p q]

end Cert.LibTrailSums
-- ==== Proof.KReduce.lean ====
/- The first kernel region: the per-channel sums. The grid walks the depth axis; at depth `d` the body adds to the
   two [4, 64] accumulators the sum, over the plane [128, 128] at that depth, of the input and of its square, having
   zeroed them at `d = 0`; the accumulators are written back once, after the last depth. So the two result arrays hold,
   at channel `(p, q)`, the sum of the input (of its square) over all three trailing axes. -/
import proofs.«148139_j79886391705784_1_alg».proof.Proof.Gen.KernelIdeal.Frame
import proofs.«148139_j79886391705784_1_alg».proof.Proof.LibTrailSums
import Idealize.ShloMosaic.Lib.Pipeline.Value
import Idealize.ShloMosaic.Lib.ValueIdx
import Idealize.ShloMosaic.PureOps.Ideal.Laws

set_option maxRecDepth 16384

noncomputable section

namespace Cert.KernelIdeal.Reduce

open Cert.KernelIdeal Cert.KernelIdeal.Gen Cert.LibTrailSums
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The input array as the region finds it, at its literal type. -/
abbrev xin (c : Dev nD) : S4x64x32x128x128.Idx → EReal := V c main_arg0

/-! What the body leaves in the two accumulators' buffers, at any float instance: at the first point (the buffers are
zeroed, read back and updated) the updates of the zero blocks; at any other point the updates of what the buffers
held. -/

section Pieces
variable {F : FTy → Type} [FloatOps F]

private theorem zero_offsets2 : (![0, 0] : Fin 2 → Nat) = fun _ => 0 := funext fun a => by fin_cases a <;> rfl
private theorem zero_offsets5 : (![0, 0, 0, 0, 0] : Fin 5 → Nat) = fun _ => 0 := funext fun a => by fin_cases a <;> rfl

/-- Away from the first point the first accumulator is left at its update of the held contents by the block. -/
private theorem out_B_1 (c : Dev nD) (i : grid0.Coords) (a1 : Memref sig .tc .vmem S4x64x1x128x128 .f32) (h1 : a1.IsWhole)
    (a2 : Memref sig .tc .vmem S4x64 .f32) (h2 : a2.IsWhole) (a3 : Memref sig .tc .vmem S4x64 .f32) (h3 : a3.IsWhole)
    (hc : ¬cond0_0 i) (x : Vec F S4x64x1x128x128 .f32) (xo1 xo2 : Vec F S4x64 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero zero_offsets2]
  simp only [View.readAt_eq_ld, h1.read_unread, h2.read_unread, View.ld_unit_zero (S := S4x64) zero_offsets2,
    View.ld_unit_zero (S := S4x64x1x128x128) zero_offsets5]

/-- Away from the first point the second accumulator is left at its update of the held contents by the block. -/
private theorem out_B_2 (c : Dev nD) (i : grid0.Coords) (a1 : Memref sig .tc .vmem S4x64x1x128x128 .f32) (h1 : a1.IsWhole)
    (a2 : Memref sig .tc .vmem S4x64 .f32) (h2 : a2.IsWhole) (a3 : Memref sig .tc .vmem S4x64 .f32) (h3 : a3.IsWhole)
    (hc : ¬cond0_0 i) (x : Vec F S4x64x1x128x128 .f32) (xo1 xo2 : Vec F S4x64 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero zero_offsets2]
  simp only [View.readAt_eq_ld, h1.read_unread, h3.read_unread, View.ld_unit_zero (S := S4x64) zero_offsets2,
    View.ld_unit_zero (S := S4x64x1x128x128) zero_offsets5]

/-- At the first point the first accumulator is zeroed, read back, and left at the zero block's update by the block. -/
private theorem out_A_1 (c : Dev nD) (i : grid0.Coords) (a1 : Memref sig .tc .vmem S4x64x1x128x128 .f32) (h1 : a1.IsWhole)
    (a2 : Memref sig .tc .vmem S4x64 .f32) (h2 : a2.IsWhole) (a3 : Memref sig .tc .vmem S4x64 .f32) (h3 : a3.IsWhole)
    (hc : cond0_0 i) (x : Vec F S4x64x1x128x128 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S4x64) zero_offsets2, View.readCov_unit_zero (S := S4x64) _ zero_offsets2]
  simp only [View.readAt_eq_ld, h1.read_unread, View.ld_unit_zero (S := S4x64x1x128x128) zero_offsets5]

/-- At the first point the second accumulator is zeroed, read back, and left at the zero block's update by the block. -/
private theorem out_A_2 (c : Dev nD) (i : grid0.Coords) (a1 : Memref sig .tc .vmem S4x64x1x128x128 .f32) (h1 : a1.IsWhole)
    (a2 : Memref sig .tc .vmem S4x64 .f32) (h2 : a2.IsWhole) (a3 : Memref sig .tc .vmem S4x64 .f32) (h3 : a3.IsWhole)
    (hc : cond0_0 i) (x : Vec F S4x64x1x128x128 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S4x64) zero_offsets2, View.readCov_unit_zero (S := S4x64) _ zero_offsets2]
  simp only [View.readAt_eq_ld, h1.read_unread, View.ld_unit_zero (S := S4x64x1x128x128) zero_offsets5]

end Pieces

/-! The payloads at the extended reals, channel by channel. -/

/-- The first accumulator's update at channel `(p, q)`: the old value plus the block's sum over its trailing axes. -/
private theorem pay3_apply (v3 : Vec Ideal S4x64x1x128x128 .f32) (v4 : Vec Ideal S4x64 .f32) (p : Fin 4) (q : Fin 64) :
    (k0_pay3 (F := Ideal) v3 v4 : S4x64.Idx → EReal) (ix2 p q) = v4 (ix2 p q) + trail v3 p q := by
  unfold k0_pay3
  refine (addf_apply _ _ _).trans ?_
  rw [shapeCast_self]
  exact congrArg (v4 (ix2 p q) + ·) (multiReduction_add_apply v3 _ _ _ _ p q)

/-- The second accumulator's update at channel `(p, q)`: the old value plus the sum of the block's squares. -/
private theorem pay4_apply (v3 : Vec Ideal S4x64x1x128x128 .f32) (v9 : Vec Ideal S4x64 .f32) (p : Fin 4) (q : Fin 64) :
    (k0_pay4 (F := Ideal) v3 v9 : S4x64.Idx → EReal) (ix2 p q) = v9 (ix2 p q) + trail (fun i => v3 i * v3 i) p q := by
  unfold k0_pay4
  refine (addf_apply _ _ _).trans ?_
  rw [shapeCast_self]
  exact congrArg (v9 (ix2 p q) + ·) (multiReduction_add_apply (mulf v3 v3) _ _ _ _ p q)

/-- The zero blocks are zero at every channel. -/
private theorem pay1_apply (j : S4x64.Idx) : (k0_pay1 (F := Ideal) : S4x64.Idx → EReal) j = 0 := by
  unfold k0_pay1
  exact Ideal.ofBits_zero_f32

private theorem pay2_apply (j : S4x64.Idx) : (k0_pay2 (F := Ideal) : S4x64.Idx → EReal) j = 0 := by
  unfold k0_pay2
  exact Ideal.ofBits_zero_f32

/-- A grid point is below 32. -/
private theorem tlt (t : Fin cfg0.N) : t.val < 32 := lt_of_lt_of_eq t.isLt (show cfg0.N = 32 from N_0)

/-- The block index of the input window at point `t`: zero on every axis but the depth, where it is `t`. -/
private theorem input_block_index : ∀ t : Fin cfg0.N, win0_0.index t 0 = 0 ∧ win0_0.index t 1 = 0 ∧ win0_0.index t 2 = t.val
      ∧ win0_0.index t 3 = 0 ∧ win0_0.index t 4 = 0 :=
  (by decide +kernel : ∀ t : Fin grid0.N, win0_0.index t 0 = 0 ∧ win0_0.index t 1 = 0 ∧ win0_0.index t 2 = t.val
      ∧ win0_0.index t 3 = 0 ∧ win0_0.index t 4 = 0)

/-- The input block at point `t`, at its literal type. -/
private abbrev xblk (c : Dev nD) (t : Fin cfg0.N) : S4x64x1x128x128.Idx → EReal := iblk0 (F := Ideal) V c 0 t

/-- The input block at point `t` is the plane of the input at depth `t`. -/
private theorem xblk_apply (c : Dev nD) (t : Fin cfg0.N) (p : Fin 4) (q : Fin 64) (k : Fin 1) (l m : Fin 128) :
    xblk V c t (ix5 p q k l m) = xin V c (ix5 p q ⟨t.val, tlt t⟩ l m) := by
  unfold xblk iblk0
  rw [View.read_apply]
  show V c main_arg0 (((cfg0.win 0).blk t).view.emb (ix5 p q k l m)) = V c main_arg0 (ix5 p q ⟨t.val, tlt t⟩ l m)
  refine congrArg (V c main_arg0) ?_
  funext a
  apply Fin.ext
  have hk : k.val = 0 := by omega
  obtain ⟨e0, e1, e2, e3, e4⟩ := input_block_index t
  match a with
  | ⟨0, _⟩ => show win0_0.index t 0 * 4 + 1 * p.val = p.val; rw [e0]; omega
  | ⟨1, _⟩ => show win0_0.index t 1 * 64 + 1 * q.val = q.val; rw [e1]; omega
  | ⟨2, _⟩ => show win0_0.index t 2 * 1 + 1 * k.val = t.val; rw [e2]; omega
  | ⟨3, _⟩ => show win0_0.index t 3 * 128 + 1 * l.val = l.val; rw [e3]; omega
  | ⟨4, _⟩ => show win0_0.index t 4 * 128 + 1 * m.val = m.val; rw [e4]; omega

/-! The running sums. -/

/-- The sum of `x` over the plane at depth `d` of channel `(p, q)`. -/
private def plane (x : S4x64x32x128x128.Idx → EReal) (p : Fin 4) (q : Fin 64) (d : Fin 32) : EReal :=
  ∑ l : Fin 128, ∑ m : Fin 128, x (ix5 p q d l m)

/-- The sum of the planes of channel `(p, q)` at the depths up to `n`. -/
private def upto (x : S4x64x32x128x128.Idx → EReal) (p : Fin 4) (q : Fin 64) (n : ℕ) : EReal :=
  ∑ d ∈ Finset.univ.filter (fun d : Fin 32 => d.val ≤ n), plane x p q d

/-- Up to depth 0 there is the one plane at depth 0. -/
private theorem upto_zero (x : S4x64x32x128x128.Idx → EReal) (p : Fin 4) (q : Fin 64) :
    upto x p q 0 = plane x p q ⟨0, by omega⟩ := by
  unfold upto
  have e : Finset.univ.filter (fun d : Fin 32 => d.val ≤ 0) = {(⟨0, by omega⟩ : Fin 32)} := by
    ext d
    rw [Finset.mem_filter, Finset.mem_singleton, Fin.ext_iff]
    dsimp only
    exact ⟨fun h => by omega, fun h => ⟨Finset.mem_univ _, by omega⟩⟩
  rw [e, Finset.sum_singleton]

/-- One depth more adds that depth's plane. -/
private theorem upto_succ (x : S4x64x32x128x128.Idx → EReal) (p : Fin 4) (q : Fin 64) (n : ℕ) (h : n + 1 < 32) :
    upto x p q (n + 1) = upto x p q n + plane x p q ⟨n + 1, h⟩ := by
  unfold upto
  have e : Finset.univ.filter (fun d : Fin 32 => d.val ≤ n + 1)
      = insert (⟨n + 1, h⟩ : Fin 32) (Finset.univ.filter (fun d : Fin 32 => d.val ≤ n)) := by
    ext d
    rw [Finset.mem_insert, Finset.mem_filter, Finset.mem_filter, Fin.ext_iff]
    dsimp only
    refine ⟨fun hd => ?_, fun hd => ⟨Finset.mem_univ _, ?_⟩⟩
    · by_cases hdn : d.val ≤ n
      · exact Or.inr ⟨Finset.mem_univ _, hdn⟩
      · exact Or.inl (by have := hd.2; omega)
    · rcases hd with hd | hd
      · omega
      · have := hd.2; omega
  have hn : (⟨n + 1, h⟩ : Fin 32) ∉ Finset.univ.filter (fun d : Fin 32 => d.val ≤ n) := by
    rw [Finset.mem_filter]; intro hd; have := hd.2; dsimp only at this; omega
  rw [e, Finset.sum_insert hn, add_comm]

/-- Up to the last depth it is the whole sum over the three trailing axes. -/
private theorem upto_last (x : S4x64x32x128x128.Idx → EReal) (p : Fin 4) (q : Fin 64) :
    upto x p q 31 = trail x p q := by
  unfold upto trail plane
  rw [Finset.filter_true_of_mem (fun d _ => by omega)]

/-- The block's sum over its trailing axes is the input's plane at the point's depth. -/
private theorem trail_xblk (c : Dev nD) (t : Fin cfg0.N) (p : Fin 4) (q : Fin 64) :
    trail (xblk V c t) p q = plane (xin V c) p q ⟨t.val, tlt t⟩ := by
  unfold trail plane
  rw [Fin.sum_univ_one]
  exact Finset.sum_congr rfl fun l _ => Finset.sum_congr rfl fun m _ => xblk_apply V c t p q 0 l m

/-- The same for the squares. -/
private theorem trail_xblk_sq (c : Dev nD) (t : Fin cfg0.N) (p : Fin 4) (q : Fin 64) :
    trail (fun i => xblk V c t i * xblk V c t i) p q
      = plane (fun i => xin V c i * xin V c i) p q ⟨t.val, tlt t⟩ := by
  unfold trail plane
  rw [Fin.sum_univ_one]
  refine Finset.sum_congr rfl fun l _ => Finset.sum_congr rfl fun m _ => ?_
  show xblk V c t (ix5 p q 0 l m) * xblk V c t (ix5 p q 0 l m) = xin V c _ * xin V c _
  rw [xblk_apply]

/-! What one point does to the two accumulators, channel by channel. -/

/-- At a point where the accumulators are zeroed first, they are left at that depth's plane sums. -/
private theorem step_first (c : Dev nD) (t : Fin cfg0.N) (h0 : t.val % 32 = 0) (p : Fin 4) (q : Fin 64) :
    ((outsAt0 (F := Ideal) V c t.val t.isLt).1 : S4x64.Idx → EReal) (ix2 p q)
        = plane (xin V c) p q ⟨t.val, tlt t⟩
      ∧ ((outsAt0 (F := Ideal) V c t.val t.isLt).2 : S4x64.Idx → EReal) (ix2 p q)
        = plane (fun i => xin V c i * xin V c i) p q ⟨t.val, tlt t⟩ := by
  rw [outsAt0_A V c t h0]; dsimp only
  refine ⟨?_, ?_⟩
  · refine (congrFun (out_A_1 (F := Ideal) c (grid0.coords t) (ms0_0 t) (hs0_0 t) (ms0_1 t) (hs0_1 t) (ms0_2 t)
      (hs0_2 t) ((hcond0_0 t).mpr h0) (iblk0 V c 0 t)) (ix2 p q)).trans ?_
    refine (pay3_apply (xblk V c t) (k0_pay1 (F := Ideal)) p q).trans ?_
    rw [pay1_apply, zero_add, trail_xblk]
  · refine (congrFun (out_A_2 (F := Ideal) c (grid0.coords t) (ms0_0 t) (hs0_0 t) (ms0_1 t) (hs0_1 t) (ms0_2 t)
      (hs0_2 t) ((hcond0_0 t).mpr h0) (iblk0 V c 0 t)) (ix2 p q)).trans ?_
    refine (pay4_apply (xblk V c t) (k0_pay2 (F := Ideal)) p q).trans ?_
    rw [pay2_apply, zero_add, trail_xblk_sq]

/-- At any other point each accumulator gains that depth's plane sum over what the point before left. -/
private theorem step_next (c : Dev nD) (t : Fin cfg0.N) (h0 : ¬t.val % 32 = 0) (p : Fin 4) (q : Fin 64) :
    ((outsAt0 (F := Ideal) V c t.val t.isLt).1 : S4x64.Idx → EReal) (ix2 p q)
        = ((outsAt0 (F := Ideal) V c (t.val - 1) (Nat.lt_of_le_of_lt (Nat.sub_le _ _) t.isLt)).1
            : S4x64.Idx → EReal) (ix2 p q) + plane (xin V c) p q ⟨t.val, tlt t⟩
      ∧ ((outsAt0 (F := Ideal) V c t.val t.isLt).2 : S4x64.Idx → EReal) (ix2 p q)
        = ((outsAt0 (F := Ideal) V c (t.val - 1) (Nat.lt_of_le_of_lt (Nat.sub_le _ _) t.isLt)).2
            : S4x64.Idx → EReal) (ix2 p q) + plane (fun i => xin V c i * xin V c i) p q ⟨t.val, tlt t⟩ := by
  rw [outsAt0_B V c t h0]; dsimp only
  refine ⟨?_, ?_⟩
  · refine (congrFun (out_B_1 (F := Ideal) c (grid0.coords t) (ms0_0 t) (hs0_0 t) (ms0_1 t) (hs0_1 t) (ms0_2 t)
      (hs0_2 t) (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix2 p q)).trans ?_
    refine (pay3_apply (xblk V c t) (outsAt0 V c (t.val - 1) (Nat.lt_of_le_of_lt (Nat.sub_le _ _) t.isLt)).1 p q).trans ?_
    rw [trail_xblk]
  · refine (congrFun (out_B_2 (F := Ideal) c (grid0.coords t) (ms0_0 t) (hs0_0 t) (ms0_1 t) (hs0_1 t) (ms0_2 t)
      (hs0_2 t) (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix2 p q)).trans ?_
    refine (pay4_apply (xblk V c t) (outsAt0 V c (t.val - 1) (Nat.lt_of_le_of_lt (Nat.sub_le _ _) t.isLt)).2 p q).trans ?_
    rw [trail_xblk_sq]

/-- After point `n` the accumulators hold, at each channel, the sums of the planes at the depths up to `n`. -/
private theorem acc_upto (c : Dev nD) (p : Fin 4) (q : Fin 64) : ∀ (n : ℕ) (hn : n < cfg0.N),
    ((outsAt0 (F := Ideal) V c n hn).1 : S4x64.Idx → EReal) (ix2 p q) = upto (xin V c) p q n
      ∧ ((outsAt0 (F := Ideal) V c n hn).2 : S4x64.Idx → EReal) (ix2 p q)
        = upto (fun i => xin V c i * xin V c i) p q n
  | 0, hn => by
    obtain ⟨e1, e2⟩ := step_first V c ⟨0, hn⟩ (Nat.zero_mod _) p q
    rw [upto_zero, upto_zero]
    exact ⟨e1, e2⟩
  | n + 1, hn => by
    have hlt : n + 1 < 32 := lt_of_lt_of_eq hn (show cfg0.N = 32 from N_0)
    have hB : ¬(⟨n + 1, hn⟩ : Fin cfg0.N).val % 32 = 0 := by dsimp only; omega
    obtain ⟨e1, e2⟩ := step_next V c ⟨n + 1, hn⟩ hB p q
    obtain ⟨i1, i2⟩ := acc_upto c p q n (Nat.lt_of_succ_lt hn)
    rw [upto_succ _ p q n hlt, upto_succ _ p q n hlt]
    exact ⟨e1.trans (congrArg (· + plane (xin V c) p q ⟨n + 1, hlt⟩) i1),
      e2.trans (congrArg (· + plane (fun i => xin V c i * xin V c i) p q ⟨n + 1, hlt⟩) i2)⟩

/-! The result arrays after the region. Each is written back once, at the last point, and its one block is the whole
array: so it ends holding what its accumulator holds after the last point. -/

/-- The last grid point. -/
private def tlast : Fin cfg0.N := ⟨31, by rw [show cfg0.N = 32 from N_0]; decide⟩

private theorem tlast_val : tlast.val = 31 := rfl

/-- The output windows' block index is zero on both axes at every point: the one block is the whole array. -/
private theorem sum_block_index : ∀ t : Fin cfg0.N, win0_1.index t 0 = 0 ∧ win0_1.index t 1 = 0 :=
  (by decide +kernel : ∀ t : Fin grid0.N, win0_1.index t 0 = 0 ∧ win0_1.index t 1 = 0)
private theorem sumsq_block_index : ∀ t : Fin cfg0.N, win0_2.index t 0 = 0 ∧ win0_2.index t 1 = 0 :=
  (by decide +kernel : ∀ t : Fin grid0.N, win0_2.index t 0 = 0 ∧ win0_2.index t 1 = 0)

/-- What the first accumulator holds after the last point, as contents of the first result array. -/
private abbrev acc1 (c : Dev nD) : Buf (Elt Ideal) ((c : Thread nD τ).loc main_v0_0) :=
  (outsAt0 (F := Ideal) V c tlast.val tlast.isLt).1

/-- What the second accumulator holds after the last point, as contents of the second result array. -/
private abbrev acc2 (c : Dev nD) : Buf (Elt Ideal) ((c : Thread nD τ).loc main_v0_1) :=
  (outsAt0 (F := Ideal) V c tlast.val tlast.isLt).2

/-- The one write-back of the first result writes the accumulator: the block read through zero offsets is the array. -/
private theorem written_back_sum (c : Dev nD) (t : Fin cfg0.N) (hf : (cfg0.win 1).flush t = true) :
    (dat0 (F := Ideal) V c).flushed 1 t = ((cfg0.win 1).blk t).view.read (Elt Ideal) (acc1 V c) := by
  obtain rfl : t = tlast := Fin.ext (by have := (flush0_1 t).mp hf; have := tlt t; rw [tlast_val]; omega)
  funext j
  rw [View.read_apply]
  show (dat0 (F := Ideal) V c).after 1 tlast ((cfg0.win 1).xinj (grid0.coords tlast) j)
      = acc1 V c (((cfg0.win 1).blk tlast).view.emb j)
  rw [after0_1]
  refine congrArg (acc1 V c) ?_
  funext a; apply Fin.ext
  obtain ⟨e0, e1⟩ := sum_block_index tlast
  match a with
  | ⟨0, h⟩ => show (j ⟨0, h⟩).val = win0_1.index tlast 0 * 4 + 1 * (j ⟨0, h⟩).val; rw [e0]; omega
  | ⟨1, h⟩ => show (j ⟨1, h⟩).val = win0_1.index tlast 1 * 64 + 1 * (j ⟨1, h⟩).val; rw [e1]; omega

/-- The same for the second result. -/
private theorem written_back_sumsq (c : Dev nD) (t : Fin cfg0.N) (hf : (cfg0.win 2).flush t = true) :
    (dat0 (F := Ideal) V c).flushed 2 t = ((cfg0.win 2).blk t).view.read (Elt Ideal) (acc2 V c) := by
  obtain rfl : t = tlast := Fin.ext (by have := (flush0_2 t).mp hf; have := tlt t; rw [tlast_val]; omega)
  funext j
  rw [View.read_apply]
  show (dat0 (F := Ideal) V c).after 2 tlast ((cfg0.win 2).xinj (grid0.coords tlast) j)
      = acc2 V c (((cfg0.win 2).blk tlast).view.emb j)
  rw [after0_2]
  refine congrArg (acc2 V c) ?_
  funext a; apply Fin.ext
  obtain ⟨e0, e1⟩ := sumsq_block_index tlast
  match a with
  | ⟨0, h⟩ => show (j ⟨0, h⟩).val = win0_2.index tlast 0 * 4 + 1 * (j ⟨0, h⟩).val; rw [e0]; omega
  | ⟨1, h⟩ => show (j ⟨1, h⟩).val = win0_2.index tlast 1 * 64 + 1 * (j ⟨1, h⟩).val; rw [e1]; omega

/-- Every index of the first result array is in the block written back at the last point. -/
private theorem sum_block_covers (i : S4x64.Idx) :
    ∃ t : Fin cfg0.N, (cfg0.win 1).flush t = true ∧ i ∈ ((cfg0.win 1).blk t).view.set := by
  refine ⟨tlast, (flush0_1 tlast).mpr rfl, ?_⟩
  show i ∈ ((View.whole main_v0_0).slice (win0_1.rect tlast)).set
  rw [View.set_slice_whole, Rect.mem_set_unit]
  obtain ⟨e0, e1⟩ := sum_block_index tlast
  intro a
  match a with
  | ⟨0, h⟩ =>
    have hi : (i ⟨0, h⟩).val < 4 := (i ⟨0, h⟩).isLt
    show win0_1.index tlast 0 * 4 ≤ (i ⟨0, h⟩).val ∧ (i ⟨0, h⟩).val < win0_1.index tlast 0 * 4 + 4
    rw [e0]; omega
  | ⟨1, h⟩ =>
    have hi : (i ⟨1, h⟩).val < 64 := (i ⟨1, h⟩).isLt
    show win0_1.index tlast 1 * 64 ≤ (i ⟨1, h⟩).val ∧ (i ⟨1, h⟩).val < win0_1.index tlast 1 * 64 + 64
    rw [e1]; omega

/-- Every index of the second result array is in the block written back at the last point. -/
private theorem sumsq_block_covers (i : S4x64.Idx) :
    ∃ t : Fin cfg0.N, (cfg0.win 2).flush t = true ∧ i ∈ ((cfg0.win 2).blk t).view.set := by
  refine ⟨tlast, (flush0_2 tlast).mpr rfl, ?_⟩
  show i ∈ ((View.whole main_v0_1).slice (win0_2.rect tlast)).set
  rw [View.set_slice_whole, Rect.mem_set_unit]
  obtain ⟨e0, e1⟩ := sumsq_block_index tlast
  intro a
  match a with
  | ⟨0, h⟩ =>
    have hi : (i ⟨0, h⟩).val < 4 := (i ⟨0, h⟩).isLt
    show win0_2.index tlast 0 * 4 ≤ (i ⟨0, h⟩).val ∧ (i ⟨0, h⟩).val < win0_2.index tlast 0 * 4 + 4
    rw [e0]; omega
  | ⟨1, h⟩ =>
    have hi : (i ⟨1, h⟩).val < 64 := (i ⟨1, h⟩).isLt
    show win0_2.index tlast 1 * 64 ≤ (i ⟨1, h⟩).val ∧ (i ⟨1, h⟩).val < win0_2.index tlast 1 * 64 + 64
    rw [e1]; omega

/-- So the first result array ends holding the first accumulator after the last point, -/
private theorem sum_array_end (c : Dev nD) : (dat0 (F := Ideal) V c).arrAt 1 cfg0.N = acc1 V c :=
  (dat0 (F := Ideal) V c).arrAt_eq_of_cover 1 (acc1 V c) (written_back_sum V c) sum_block_covers

/-- and the second the second. -/
private theorem sumsq_array_end (c : Dev nD) : (dat0 (F := Ideal) V c).arrAt 2 cfg0.N = acc2 V c :=
  (dat0 (F := Ideal) V c).arrAt_eq_of_cover 2 (acc2 V c) (written_back_sumsq V c) sumsq_block_covers

/-- After the region the first result array holds the channel sums of the input. -/
theorem sum_final (c : Dev nD) (p : Fin 4) (q : Fin 64) :
    ((dat0 (F := Ideal) V c).arrAt 1 cfg0.N : S4x64.Idx → EReal) (ix2 p q) = trail (xin V c) p q := by
  refine (congrFun (sum_array_end V c) (ix2 p q)).trans ?_
  refine (acc_upto V c p q tlast.val tlast.isLt).1.trans ?_
  rw [tlast_val, upto_last]

/-- After the region the second result array holds the channel sums of the input's square. -/
theorem sumsq_final (c : Dev nD) (p : Fin 4) (q : Fin 64) :
    ((dat0 (F := Ideal) V c).arrAt 2 cfg0.N : S4x64.Idx → EReal) (ix2 p q)
      = trail (fun i => xin V c i * xin V c i) p q := by
  refine (congrFun (sumsq_array_end V c) (ix2 p q)).trans ?_
  refine (acc_upto V c p q tlast.val tlast.isLt).2.trans ?_
  rw [tlast_val, upto_last]

end Cert.KernelIdeal.Reduce

end
-- ==== Proof.KScale.lean ====
/- The second kernel region: the channel-wise scale. Grid point `(b, cb)` holds the block [1, 4, 32, 128, 128] of
   the input at batch `b` and channels `4·cb … 4·cb + 3`, reads the four gate values `g (b, 4·cb + r)` out of the
   whole [4, 64] gate array, and stores the block times the gate of each element's channel. The blocks tile the array,
   so the result array holds `x i · g (i₀, i₁)` at every index `i`. -/
import proofs.«148139_j79886391705784_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scale

open Cert.KernelIdeal Cert.KernelIdeal.Gen
open Idealize.ShloMosaic Idealize.ShloMosaic.TcCoe Idealize.ShloMosaic.ValueIdx Idealize.SL.Sem
open Idealize.ShloMosaic.Pipeline (Dat)

section Piece
variable {F : FTy → Type} [FloatOps F]

/-- The zero offsets of a whole-block access, however spelt, are zero on every axis. -/
private theorem zero_offsets : (![0, 0, 0, 0, 0] : Fin 5 → Nat) = fun _ => 0 := funext fun a => by fin_cases a <;> rfl

/-- The four gates a grid point loads: the [1, 4] rectangle of the gate buffer at the offsets the point computes. -/
private abbrev gates (i : grid1.Coords) (x1 : Vec F S4x64 .f32) : Vec F S1x4 .f32 :=
  View.ld x1 (Rect.unit (s := S4x64) (k1_off1 i) S1x4.size (k1_off1_inb i))

/-- What one run of the body leaves in the output buffer: the input block times the broadcast gates. -/
private theorem out_eq_product (c : Dev nD) (i : grid1.Coords) (arg2 : Memref sig .tc .vmem S1x4x32x128x128 .f32) (harg2 : arg2.IsWhole) (arg3 : Memref sig .tc .vmem S4x64 .f32) (harg3 : arg3.IsWhole) (arg4 : Memref sig .tc .vmem S1x4x32x128x128 .f32) (harg4 : arg4.IsWhole)
    (x0 : Vec F S1x4x32x128x128 .f32) (x1 : Vec F S4x64 .f32) :
    out1_A_2 (F := F) c i arg2 harg2 arg3 harg3 arg4 harg4 x0 x1 = k1_pay1 x0 (gates i x1) := by
  unfold out1_A_2
  rw [View.read_writes_eq_canon _ _ _ (cover1_A_2 c i arg2 harg2 arg3 harg3 arg4 harg4 x0 x1)]
  unfold kernelRun1_A
  dsimp only
  sl_unfold_words
  rw [View.canon_unit_zero zero_offsets]
  simp only [View.readAt_eq_ld, harg2.read_unread, harg3.read_unread, View.ld_unit_zero (S := S1x4x32x128x128) zero_offsets]
  rfl

end Piece

section Point
variable {F : FTy → Type} [FloatOps F]

/-- The loaded gate at position `(0, r)` is the gate array's entry at batch `i₀` and channel `4·i₁ + r`:
    a unit-stride rectangle reads its offset plus the coordinate inside it. -/
private theorem gates_apply (i : grid1.Coords) (x1 : Vec F S4x64 .f32) (r : Fin 4) (p : Fin 4) (q : Fin 64)
    (hp : p.val = (i 0).val) (hq : q.val = 4 * (i 1).val + r.val) :
    gates i x1 (ix2 (0 : Fin 1) r) = x1 (ix2 p q) := by
  show x1 _ = x1 _
  refine congrArg x1 (funext fun a => Fin.ext ?_)
  match a with
  | ⟨0, _⟩ =>
    show (k1_off1 i) 0 + 1 * 0 = p.val
    rw [k1_off1_eq i]
    show (i 0).val + 1 * 0 = p.val
    omega
  | ⟨1, _⟩ =>
    show (k1_off1 i) 1 + 1 * r.val = q.val
    rw [k1_off1_eq i]
    show 4 * (i 1).val + 1 * r.val = q.val
    omega

end Point

/-- The body's product at an index of the block: the block's entry times the gate of the entry's channel. -/
private theorem product_apply (v0 : Vec Ideal S1x4x32x128x128 .f32) (v4 : Vec Ideal S1x4 .f32)
    (r : Fin 4) (k : Fin 32) (l m : Fin 128) :
    k1_pay1 (F := Ideal) v0 v4 (ix5 (0 : Fin 1) r k l m) = v0 (ix5 (0 : Fin 1) r k l m) * v4 (ix2 (0 : Fin 1) r) := by
  unfold k1_pay1
  refine (mulf_apply _ _ _).trans ?_
  refine congrArg (fun z => v0 (ix5 (0 : Fin 1) r k l m) * z) ?_
  refine (broadcastTo_apply _ _ _ (ix5 (0 : Fin 1) r (0 : Fin 1) (0 : Fin 1) (0 : Fin 1)) ?_).trans ?_
  · intro a
    match a with
    | ⟨0, _⟩ => rfl
    | ⟨1, _⟩ => rfl
    | ⟨2, _⟩ => rfl
    | ⟨3, _⟩ => rfl
    | ⟨4, _⟩ => rfl
  refine (shapeCast_apply _ _ _ (ix1 r) ?_).trans ?_
  · rw [Shape.rowMajor_val_one, Shape.rowMajor_val_five]
    show r.val = ((((0 * 4 + r.val) * 1 + 0) * 1 + 0) * 1 + 0)
    omega
  exact shapeCast_1a_a_apply _ _ r

variable (V : (c : Dev nD) → (b : Ref sig .tc) → Buf (Elt Ideal) ((c : Thread nD τ).loc b))

/-- The input array and the gate array as the region finds them, at their literal types. -/
abbrev xin (c : Dev nD) : S4x64x32x128x128.Idx → EReal := V c main_arg0
abbrev gin (c : Dev nD) : S4x64.Idx → EReal := V c main_v25

/-- The scaled array: each element times the gate of its batch and channel. -/
def scaled (x : S4x64x32x128x128.Idx → EReal) (g : S4x64.Idx → EReal) : S4x64x32x128x128.Idx → EReal :=
  fun i => x i * g (ix2 (⟨(i 0).val, (i 0).isLt⟩ : Fin 4) (⟨(i 1).val, (i 1).isLt⟩ : Fin 64))

/-- The input block and the gate block a grid point holds, at their literal types. -/
private abbrev xblk (c : Dev nD) (t : Fin cfg1.N) : Vec Ideal S1x4x32x128x128 .f32 := iblk1 V c 0 t
private abbrev gblk (c : Dev nD) (t : Fin cfg1.N) : Vec Ideal S4x64 .f32 := iblk1 V c 1 t

/-- The printed index maps, decided once over the 64 grid points: the input's block moves with the output's,
    the gate window stays on its one block, and the output's block index is the point's coordinates
    `(t / 16, t mod 16, 0, 0, 0)`. -/
private theorem block_indices : ∀ t : Fin cfg1.N,
    win1_0.index t (0 : Fin 5) = win1_2.index t (0 : Fin 5)
    ∧ win1_0.index t (1 : Fin 5) = win1_2.index t (1 : Fin 5)
    ∧ win1_0.index t (2 : Fin 5) = win1_2.index t (2 : Fin 5)
    ∧ win1_0.index t (3 : Fin 5) = win1_2.index t (3 : Fin 5)
    ∧ win1_0.index t (4 : Fin 5) = win1_2.index t (4 : Fin 5)
    ∧ win1_1.index t (0 : Fin 2) = 0
    ∧ win1_1.index t (1 : Fin 2) = 0
    ∧ win1_2.index t (0 : Fin 5) = ((grid1.coords t) 0).val
    ∧ win1_2.index t (1 : Fin 5) = ((grid1.coords t) 1).val
    ∧ win1_2.index t (2 : Fin 5) = 0
    ∧ win1_2.index t (3 : Fin 5) = 0
    ∧ win1_2.index t (4 : Fin 5) = 0
    ∧ win1_2.index t (0 : Fin 5) = t.val / 16
    ∧ win1_2.index t (1 : Fin 5) = t.val % 16 :=
  (by decide +kernel : ∀ t : Fin grid1.N, _)

/-- One element of a point's product, over variables: if the block entry at `y` is the array's entry at `I`,
    the gate buffer holds the gate array, and `I` has the point's batch and the channel `4·i₁ + y₁`,
    then the product at `y` is the scaled array at `I`. -/
private theorem product_eq_scaled (X : S4x64x32x128x128.Idx → EReal) (G : S4x64.Idx → EReal)
    (i : grid1.Coords) (v0 : Vec Ideal S1x4x32x128x128 .f32) (x1 : Vec Ideal S4x64 .f32)
    (y : S1x4x32x128x128.Idx) (I : S4x64x32x128x128.Idx)
    (hv0 : v0 y = X I) (hx1 : ∀ (p : Fin 4) (q : Fin 64), x1 (ix2 p q) = G (ix2 p q))
    (hI0 : (I 0).val = (i 0).val) (hI1 : (I 1).val = 4 * (i 1).val + (y 1).val) :
    k1_pay1 (F := Ideal) v0 (gates i x1) y = scaled X G I := by
  obtain ⟨u, r, k, l, m, rfl⟩ : ∃ (u : Fin 1) (r : Fin 4) (k : Fin 32) (l m : Fin 128), y = ix5 u r k l m :=
    ⟨⟨(y 0).val, (y 0).isLt⟩, ⟨(y 1).val, (y 1).isLt⟩, ⟨(y 2).val, (y 2).isLt⟩, ⟨(y 3).val, (y 3).isLt⟩,
      ⟨(y 4).val, (y 4).isLt⟩, by
        funext a
        match a with
        | ⟨0, _⟩ => rfl
        | ⟨1, _⟩ => rfl
        | ⟨2, _⟩ => rfl
        | ⟨3, _⟩ => rfl
        | ⟨4, _⟩ => rfl⟩
  obtain rfl : u = 0 := Subsingleton.elim _ _
  rw [product_apply, hv0,
    gates_apply (F := Ideal) i x1 r ⟨(I 0).val, (I 0).isLt⟩ ⟨(I 1).val, (I 1).isLt⟩ hI0 hI1, hx1]
  rfl

/-- What point `t` writes back is its block of the scaled array. -/
private theorem written_back_eq (c : Dev nD) (t : Fin cfg1.N) :
    (dat1 (F := Ideal) V c).flushed 2 t = ((cfg1.win 2).blk t).view.read (Elt Ideal) (scaled (xin V c) (gin V c)) := by
  show (cfg1.win 2).cut (grid1.coords t) ((dat1 V c).after 2 t) = _
  rw [after1_2]
  unfold outsAt1
  rw [out_eq_product (F := Ideal) c (grid1.coords t) (ms1_0 t) (hs1_0 t) (ms1_1 t) (hs1_1 t) (ms1_2 t) (hs1_2 t) (iblk1 V c 0 t) (iblk1 V c 1 t)]
  obtain ⟨e0, e1, e2, e3, e4, g0, g1, o0, o1, o2, o3, o4, -, -⟩ := block_indices t
  funext j
  show k1_pay1 (F := Ideal) (xblk V c t) (gates (grid1.coords t) (gblk V c t)) ((cfg1.win 2).xinj (grid1.coords t) j)
      = scaled (xin V c) (gin V c) (((cfg1.win 2).blk t).view.emb j)
  refine product_eq_scaled (xin V c) (gin V c) (grid1.coords t) (xblk V c t) (gblk V c t) _ _ ?_ ?_ ?_ ?_
  · show xin V c (((cfg1.win 0).blk t).view.emb ((cfg1.win 2).xinj (grid1.coords t) j))
        = xin V c (((cfg1.win 2).blk t).view.emb j)
    refine congrArg (xin V c) (funext fun a => Fin.ext ?_)
    match a with
    | ⟨0, _⟩ => show win1_0.index t (0 : Fin 5) * 1 + 1 * (j 0).val = win1_2.index t (0 : Fin 5) * 1 + 1 * (j 0).val; rw [e0]
    | ⟨1, _⟩ => show win1_0.index t (1 : Fin 5) * 4 + 1 * (j 1).val = win1_2.index t (1 : Fin 5) * 4 + 1 * (j 1).val; rw [e1]
    | ⟨2, _⟩ => show win1_0.index t (2 : Fin 5) * 32 + 1 * (j 2).val = win1_2.index t (2 : Fin 5) * 32 + 1 * (j 2).val; rw [e2]
    | ⟨3, _⟩ => show win1_0.index t (3 : Fin 5) * 128 + 1 * (j 3).val = win1_2.index t (3 : Fin 5) * 128 + 1 * (j 3).val; rw [e3]
    | ⟨4, _⟩ => show win1_0.index t (4 : Fin 5) * 128 + 1 * (j 4).val = win1_2.index t (4 : Fin 5) * 128 + 1 * (j 4).val; rw [e4]
  · intro p q
    show gin V c (((cfg1.win 1).blk t).view.emb (ix2 p q)) = gin V c (ix2 p q)
    refine congrArg (gin V c) (funext fun a => Fin.ext ?_)
    match a with
    | ⟨0, _⟩ => show win1_1.index t (0 : Fin 2) * 4 + 1 * p.val = p.val; rw [g0]; omega
    | ⟨1, _⟩ => show win1_1.index t (1 : Fin 2) * 64 + 1 * q.val = q.val; rw [g1]; omega
  · show win1_2.index t (0 : Fin 5) * 1 + 1 * (j 0).val = ((grid1.coords t) 0).val
    have hj : (j 0).val < 1 := (j 0).isLt
    omega
  · show win1_2.index t (1 : Fin 5) * 4 + 1 * (j 1).val = 4 * ((grid1.coords t) 1).val + (j 1).val
    omega

/-- An index of the array is in point `t`'s block iff each coordinate is in the block's range on its axis. -/
private theorem mem_block_iff (t : Fin cfg1.N) (i : S4x64x32x128x128.Idx) :
    i ∈ ((cfg1.win 2).blk t).view.set ↔ ∀ a : Fin 5, win1_2.index t a * S1x4x32x128x128.size a ≤ (i a).val
      ∧ (i a).val < win1_2.index t a * S1x4x32x128x128.size a + S1x4x32x128x128.size a := by
  show i ∈ ((View.whole main_v26).slice (win1_2.rect t)).set ↔ _
  rw [View.set_slice_whole, Rect.mem_set_unit]
  exact Iff.rfl

/-- The blocks tile the array: index `i` lies in the block of the point `16·i₀ + i₁ / 4`, which writes back. -/
private theorem blocks_cover (i : S4x64x32x128x128.Idx) :
    ∃ t : Fin cfg1.N, (cfg1.win 2).flush t = true ∧ i ∈ ((cfg1.win 2).blk t).view.set := by
  have h0 : (i 0).val < 4 := (i 0).isLt
  have h1 : (i 1).val < 64 := (i 1).isLt
  have h2 : (i 2).val < 32 := (i 2).isLt
  have h3 : (i 3).val < 128 := (i 3).isLt
  have h4 : (i 4).val < 128 := (i 4).isLt
  obtain ⟨t, ht⟩ : ∃ t : Fin cfg1.N, t.val = 16 * (i 0).val + (i 1).val / 4 :=
    ⟨⟨16 * (i 0).val + (i 1).val / 4, by rw [show cfg1.N = 64 from N_1]; omega⟩, rfl⟩
  obtain ⟨-, -, -, -, -, -, -, -, -, o2, o3, o4, q0, q1⟩ := block_indices t
  refine ⟨t, flush1_2 t, ?_⟩
  rw [mem_block_iff]
  intro a
  match a with
  | ⟨0, _⟩ =>
    show win1_2.index t (0 : Fin 5) * 1 ≤ (i 0).val ∧ (i 0).val < win1_2.index t (0 : Fin 5) * 1 + 1
    omega
  | ⟨1, _⟩ =>
    show win1_2.index t (1 : Fin 5) * 4 ≤ (i 1).val ∧ (i 1).val < win1_2.index t (1 : Fin 5) * 4 + 4
    omega
  | ⟨2, _⟩ =>
    show win1_2.index t (2 : Fin 5) * 32 ≤ (i 2).val ∧ (i 2).val < win1_2.index t (2 : Fin 5) * 32 + 32
    omega
  | ⟨3, _⟩ =>
    show win1_2.index t (3 : Fin 5) * 128 ≤ (i 3).val ∧ (i 3).val < win1_2.index t (3 : Fin 5) * 128 + 128
    omega
  | ⟨4, _⟩ =>
    show win1_2.index t (4 : Fin 5) * 128 ≤ (i 4).val ∧ (i 4).val < win1_2.index t (4 : Fin 5) * 128 + 128
    omega

/-- After the region the result array is the scaled input. -/
theorem scaled_final (c : Dev nD) :
    ((dat1 (F := Ideal) V c).arrAt 2 cfg1.N : S4x64x32x128x128.Idx → EReal) = scaled (xin V c) (gin V c) := by
  exact (dat1 (F := Ideal) V c).arrAt_eq_of_cover 2 (scaled (xin V c) (gin V c)) (fun t _ => written_back_eq V c t) blocks_cover

end Cert.KernelIdeal.Scale

end
-- ==== Proof.KValue.lean ====
/- The kernel program's result as one function of its argument arrays. The run with the result named leaves the
   result array at the last boundary's contents; that is the second region's output, the input scaled by the gate array
   the region finds; the gate array is the host chain applied to the first region's two results; and those are the
   per-channel sums of the input and of its square. -/
import proofs.«148139_j79886391705784_1_alg».proof.Proof.KRun
import proofs.«148139_j79886391705784_1_alg».proof.Proof.KHost
import proofs.«148139_j79886391705784_1_alg».proof.Proof.KReduce
import proofs.«148139_j79886391705784_1_alg».proof.Proof.KScale

set_option maxRecDepth 16384

noncomputable section

namespace Cert.KernelIdeal.KValue

open Cert.KernelIdeal Cert.KernelIdeal.Gen Cert.KernelIdeal.HostGlue Cert.LibTrailSums
open Idealize.ShloMosaic Idealize.ShloMosaic.TcCoe Idealize.ShloMosaic.ValueIdx Idealize.SL.Sem

variable (m : (ℓ : Loc nD τ sig) → Buf (Elt Ideal) ℓ) (ρ : Dev nD → PrngReg)

/-- The input array at launch, at its literal type. -/
abbrev xarg (c : Dev nD) : S4x64x32x128x128.Idx → EReal := m ((c : Thread nD τ).loc main_arg0)

/-- The first region's first result: the per-channel sums of the input. -/
abbrev sums (c : Dev nD) : S4x64.Idx → EReal := W1 (F := Ideal) m ρ c (Proc.devRef .tc main_v0_0)
/-- The first region's second result: the per-channel sums of the input's square. -/
abbrev sumsqs (c : Dev nD) : S4x64.Idx → EReal := W1 (F := Ideal) m ρ c (Proc.devRef .tc main_v0_1)

theorem sums_apply (c : Dev nD) (p : Fin 4) (q : Fin 64) :
    sums m ρ c (ix2 p q) = trail (xarg m c) p q :=
  (congrFun (W1_arr m ρ c 1) (ix2 p q)).trans (Reduce.sum_final (V0 m ρ) c p q)

theorem sumsqs_apply (c : Dev nD) (p : Fin 4) (q : Fin 64) :
    sumsqs m ρ c (ix2 p q)
      = trail (fun i => xarg m c i * xarg m c i) p q :=
  (congrFun (W1_arr m ρ c 2) (ix2 p q)).trans (Reduce.sumsq_final (V0 m ρ) c p q)

/-- The result array at the last boundary: the input scaled by the gate of the two sums and the weights. -/
theorem W5_v26 (c : Dev nD) :
    (W5 (F := Ideal) m ρ c (Proc.devRef .tc main_v26) : S4x64x32x128x128.Idx → EReal)
      = Scale.scaled (m ((c : Thread nD τ).loc main_arg0))
          (gateK (yK (sums m ρ c) (sumsqs m ρ c)) (m ((c : Thread nD τ).loc main_arg1)) (m ((c : Thread nD τ).loc main_arg2))
            (m ((c : Thread nD τ).loc main_arg3)) (m ((c : Thread nD τ).loc main_arg4))) := by
  refine (W5_arr m ρ c 2).trans ((Scale.scaled_final (V4 m ρ) c).trans ?_)
  show Scale.scaled (W4 (F := Ideal) m ρ c (Proc.devRef .tc main_arg0)) (W4 (F := Ideal) m ρ c (Proc.devRef .tc main_v25)) = _
  rw [W4_arg0 m ρ c, W4_v25 m ρ c]

end Cert.KernelIdeal.KValue

end
-- ==== Proof.RefRead.lean ====
/- The reference program read at an index. Its run is the generated one and most of its host operations are read at
   an index by the generated lemmas; added here: the two sums over the axes [2, 3, 4] (which the generated lemmas do not
   read) as triple sums, the mean and the mean squared deviation at a channel `(p, q)`, and the result as the input
   times a gate of the channel, the gate being one fixed chain of host operations applied to `deviation + mean`. -/
import proofs.«148139_j79886391705784_1_alg».proof.Proof.Gen.ReferenceIdeal.Run
import proofs.«148139_j79886391705784_1_alg».proof.Proof.Gen.ReferenceIdeal.Read
import proofs.«148139_j79886391705784_1_alg».proof.Proof.LibTrailSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.LibTrailSums
open Idealize.ShloMosaic Idealize.ShloMosaic.TcCoe Idealize.ShloMosaic.ValueIdx Idealize.SL.Sem

/-- The gate as a function of `y = deviation + mean` and the four weight arrays: two dense layers with a
    rectifier between them and a logistic function at the end, as the reference spells them. -/
def gateR (y : FVec Ideal S4x64 .f32) (x1 : FVec Ideal S4x64 .f32) (x2 : FVec Ideal S4 .f32) (x3 : FVec Ideal S64x4 .f32)
    (x4 : FVec Ideal S64 .f32) : FVec Ideal S4x64 .f32 :=
  Host.divf (broadcastInDim S4x64 ![] bcast_S_S4x64 (constant S_ .f32 0x3F800000#32))
    (addf (broadcastInDim S4x64 ![] bcast_S_S4x64 (constant S_ .f32 0x3F800000#32))
      (Host.exp (Host.negf (addf
        (Host.dotGeneral dot_S4x4_S64x4_S4x64_1_1_0_0_n_n none
          (maximumf (addf (Host.dotGeneral dot_S4x64_S4x64_S4x4_1_1_0_0_n_n none y x1)
              (broadcastInDim S4x4 ![0, 1] bcast_S1x4_S4x4_0_1 (broadcastInDim S1x4 ![1] bcast_S4_S1x4_1 x2)))
            (broadcastInDim S4x4 ![] bcast_S_S4x4 (constant S_ .f32 0x00000000#32))) x3)
        (broadcastInDim S4x64 ![0, 1] bcast_S1x64_S4x64_0_1 (broadcastInDim S1x64 ![1] bcast_S64_S1x64_1 x4))))))

/-- The gate the reference applies is `gateR` of its `deviation + mean` array. -/
theorem gate_eq (x0 : FVec Ideal S4x64x32x128x128 .f32) (x1 : FVec Ideal S4x64 .f32) (x2 : FVec Ideal S4 .f32)
    (x3 : FVec Ideal S64x4 .f32) (x4 : FVec Ideal S64 .f32) :
    val_main_v26 (F := Ideal) x0 x1 x2 x3 x4 = gateR (val_main_v11 (F := Ideal) x0) x1 x2 x3 x4 := by
  simp only [val_main_v26, val_main_v25, val_main_v24, val_main_v23, val_main_v22, val_main_v21, val_main_v20,
    val_main_v19, val_main_v18, val_main_v17, val_main_v16, val_main_call0_v0, val_main_call0_cst, val_main_v15,
    val_main_v14, val_main_v13, val_main_v12, val_main_cst_3, val_main_cst_4]
  rfl

/-- The reference's result at an index: the input there times the gate of the index's batch and channel. -/
theorem result_apply (x0 : FVec Ideal S4x64x32x128x128 .f32) (x1 : FVec Ideal S4x64 .f32) (x2 : FVec Ideal S4 .f32)
    (x3 : FVec Ideal S64x4 .f32) (x4 : FVec Ideal S64 .f32) (i : S4x64x32x128x128.Idx) :
    val_main_v29 (F := Ideal) x0 x1 x2 x3 x4 i
      = x0 i * gateR (val_main_v11 (F := Ideal) x0) x1 x2 x3 x4
          (ix2 (⟨(i 0).val, (i 0).isLt⟩ : Fin 4) (⟨(i 1).val, (i 1).isLt⟩ : Fin 64)) := by
  rw [val_main_v29_apply, val_main_v28_apply, val_main_v27_apply, gate_eq]
  have hi : idx_main_v27 (idx_main_v28 i)
      = ix2 (⟨(i 0).val, (i 0).isLt⟩ : Fin 4) (⟨(i 1).val, (i 1).isLt⟩ : Fin 64) :=
    funext fun a => Fin.ext (by match a with | ⟨0, _⟩ => rfl | ⟨1, _⟩ => rfl)
  rw [hi]
  rfl

/-- The mean at channel `(p, q)`: the initial value plus the triple sum, over the count. -/
theorem mean_apply (x0 : FVec Ideal S4x64x32x128x128 .f32) (p : Fin 4) (q : Fin 64) :
    val_main_v2 (F := Ideal) x0 (ix2 p q)
      = Ideal.div (Ideal.ofBits .f32 0x00000000#32 + trail x0 p q) (Ideal.ofBits .f32 0x49000000#32) := by
  have h0 : val_main_v0 (F := Ideal) x0 (ix2 p q) = Ideal.ofBits .f32 0x00000000#32 + trail x0 p q :=
    hostReduceAdd_apply reducesTo_S4x64x32x128x128_S4x64_d2_3_4 x0 (Ideal.ofBits .f32 0x00000000#32) p q
  have h1 : val_main_v1 (F := Ideal) (ix2 p q) = Ideal.ofBits .f32 0x49000000#32 := by
    rw [val_main_v1_apply, val_main_cst_0_apply]; rfl
  rw [val_main_v2_apply, h0, h1]
  rfl

/-- The mean squared deviation at channel `(p, q)`: every element of the channel less the channel's mean, squared,
    summed from the initial value, over the count. -/
theorem var_apply (x0 : FVec Ideal S4x64x32x128x128 .f32) (p : Fin 4) (q : Fin 64) :
    val_main_v9 (F := Ideal) x0 (ix2 p q)
      = Ideal.div (Ideal.ofBits .f32 0x00000000#32
          + ∑ k : Fin 32, ∑ l : Fin 128, ∑ m : Fin 128,
              (x0 (ix5 p q k l m) - val_main_v2 (F := Ideal) x0 (ix2 p q))
                * (x0 (ix5 p q k l m) - val_main_v2 (F := Ideal) x0 (ix2 p q)))
          (Ideal.ofBits .f32 0x49000000#32) := by
  have h6 : ∀ (k : Fin 32) (l : Fin 128) (m : Fin 128), val_main_v6 (F := Ideal) x0 (ix5 p q k l m)
      = (x0 (ix5 p q k l m) - val_main_v2 (F := Ideal) x0 (ix2 p q))
          * (x0 (ix5 p q k l m) - val_main_v2 (F := Ideal) x0 (ix2 p q)) := by
    intro k l m
    have hi : idx_main_v3 (idx_main_v4 (ix5 p q k l m)) = ix2 p q :=
      funext fun a => Fin.ext (by match a with | ⟨0, _⟩ => rfl | ⟨1, _⟩ => rfl)
    rw [val_main_v6_apply, val_main_v5_apply, val_main_v4_apply, val_main_v3_apply, hi]
    rfl
  have h7 : val_main_v7 (F := Ideal) x0 (ix2 p q)
      = Ideal.ofBits .f32 0x00000000#32 + trail (val_main_v6 (F := Ideal) x0) p q :=
    hostReduceAdd_apply reducesTo_S4x64x32x128x128_S4x64_d2_3_4 (val_main_v6 (F := Ideal) x0)
      (Ideal.ofBits .f32 0x00000000#32) p q
  have h8 : val_main_v8 (F := Ideal) (ix2 p q) = Ideal.ofBits .f32 0x49000000#32 := by
    rw [val_main_v8_apply, val_main_cst_2_apply]; rfl
  have ht : trail (val_main_v6 (F := Ideal) x0) p q
      = ∑ k : Fin 32, ∑ l : Fin 128, ∑ m : Fin 128,
          (x0 (ix5 p q k l m) - val_main_v2 (F := Ideal) x0 (ix2 p q))
            * (x0 (ix5 p q k l m) - val_main_v2 (F := Ideal) x0 (ix2 p q)) := by
    unfold Cert.LibTrailSums.trail
    exact Finset.sum_congr rfl fun k _ => Finset.sum_congr rfl fun l _ => Finset.sum_congr rfl fun m _ => h6 k l m
  rw [val_main_v9_apply, h7, h8, ht]
  rfl

/-- `deviation + mean` at channel `(p, q)`: the host's square root of the mean squared deviation, plus the mean. -/
theorem y_apply (x0 : FVec Ideal S4x64x32x128x128 .f32) (p : Fin 4) (q : Fin 64) :
    val_main_v11 (F := Ideal) x0 (ix2 p q)
      = (FloatOps.hostUnary (F := Ideal) (φ := .f32) .sqrt (val_main_v9 (F := Ideal) x0 (ix2 p q)) : EReal)
          + (val_main_v2 (F := Ideal) x0 (ix2 p q) : EReal) := by
  rw [val_main_v11_apply, val_main_v10_apply]
  rfl

end Cert.ReferenceIdeal.RefValue

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«148139_j79886391705784_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibBnVar.lean ====
/- The variance identity of batch normalisation. Over finitely many FINITE values `x r`, `r : Fin n`, with `n ≠ 0`,
   the mean of the squares minus the square of the mean equals the mean of the squared deviations from the mean:
       (∑ x²)/n − ((∑ x)/n)² = (∑ (x − (∑ x)/n)²)/n.
   At finite values every operation is the real one, so both sides are the coercion of one real number; expanding the
   square and using `∑ 1 = n` gives the identity in ℝ. (At an infinite `x r` the two sides are different junk values,
   which is why finiteness is assumed.) The common value is nonnegative and finite, and so is the mean finite. -/
import Idealize.ShloMosaic.PureOps.Ideal
import Mathlib.Algebra.BigOperators.Ring.Finset
import Mathlib.Algebra.Order.BigOperators.Ring.Finset
import Mathlib.Tactic.FieldSimp
import Mathlib.Tactic.Ring
import proofs.«148139_j79886391705784_1_alg».proof.Proof.LibFinite
import proofs.«148139_j79886391705784_1_alg».proof.Proof.LibConsts

namespace Cert.LibBnVar

open Idealize.ShloMosaic
open Cert.LibFinite
open scoped BigOperators

/-- The mean: the sum over the rows divided by the row count. -/
noncomputable abbrev mean {n : Nat} (x : Fin n → EReal) (D : EReal) : EReal := Ideal.div (∑ r, x r) D

/-- The kernel's variance: mean of squares minus squared mean. -/
noncomputable abbrev varK {n : Nat} (x : Fin n → EReal) (D : EReal) : EReal :=
  Ideal.div (∑ r, x r * x r) D - (Ideal.div (∑ r, x r) D) * (Ideal.div (∑ r, x r) D)

/-- The reference's variance: mean of the squared deviations from the mean. -/
noncomputable abbrev varR {n : Nat} (x : Fin n → EReal) (D : EReal) : EReal :=
  Ideal.div (∑ r, (x r - Ideal.div (∑ r, x r) D) * (x r - Ideal.div (∑ r, x r) D)) D

section Real

variable {n : Nat} (y : Fin n → ℝ)

/-- The identity in ℝ. -/
theorem real_var_eq (hn : (n : ℝ) ≠ 0) :
    (∑ r, y r * y r) / (n : ℝ) - ((∑ r, y r) / (n : ℝ)) * ((∑ r, y r) / (n : ℝ))
      = (∑ r, (y r - (∑ r, y r) / (n : ℝ)) * (y r - (∑ r, y r) / (n : ℝ))) / (n : ℝ) := by
  set m : ℝ := (∑ r, y r) / (n : ℝ) with hm
  have hS : (∑ r, y r) = m * (n : ℝ) := by rw [hm]; field_simp
  have hterm : ∀ r, (y r - m) * (y r - m) = y r * y r - 2 * m * y r + m * m := fun r => by ring
  have key : (∑ r, (y r - m) * (y r - m)) = (∑ r, y r * y r) - 2 * m * (∑ r, y r) + (n : ℝ) * (m * m) := by
    simp only [hterm, Finset.sum_add_distrib, Finset.sum_sub_distrib, ← Finset.mul_sum, Finset.sum_const,
      Finset.card_univ, Fintype.card_fin, nsmul_eq_mul]
    ring
  rw [key, hS]
  field_simp
  ring

/-- The real mean of squared deviations is nonnegative. -/
theorem real_varR_nonneg :
    0 ≤ (∑ r, (y r - (∑ r, y r) / (n : ℝ)) * (y r - (∑ r, y r) / (n : ℝ))) / (n : ℝ) :=
  div_nonneg (Finset.sum_nonneg fun r _ => mul_self_nonneg _) (Nat.cast_nonneg n)

end Real

section Coe

variable {n : Nat} (y : Fin n → ℝ)

/-- The mean of real values is the real mean. -/
theorem mean_coe (hn : (n : ℝ) ≠ 0) :
    Ideal.div (∑ r, ((y r : ℝ) : EReal)) ((n : ℝ) : EReal) = (((∑ r, y r) / (n : ℝ) : ℝ) : EReal) := by
  rw [← coe_sum, div_coe_coe _ hn]

/-- The kernel's variance of real values is a real number. -/
theorem varK_coe (hn : (n : ℝ) ≠ 0) :
    varK (fun r => ((y r : ℝ) : EReal)) ((n : ℝ) : EReal)
      = (((∑ r, y r * y r) / (n : ℝ) - ((∑ r, y r) / (n : ℝ)) * ((∑ r, y r) / (n : ℝ)) : ℝ) : EReal) := by
  show Ideal.div (∑ r, ((y r : ℝ) : EReal) * ((y r : ℝ) : EReal)) _ - Ideal.div (∑ r, ((y r : ℝ) : EReal)) _ * Ideal.div (∑ r, ((y r : ℝ) : EReal)) _ = _
  rw [mean_coe y hn]
  have h2 : (∑ r, ((y r : ℝ) : EReal) * ((y r : ℝ) : EReal)) = (((∑ r, y r * y r : ℝ)) : EReal) := by
    rw [coe_sum]; exact Finset.sum_congr rfl fun r _ => (EReal.coe_mul _ _).symm
  rw [h2, div_coe_coe _ hn, ← EReal.coe_mul, ← EReal.coe_sub]

/-- The reference's variance of real values is a real number. -/
theorem varR_coe (hn : (n : ℝ) ≠ 0) :
    varR (fun r => ((y r : ℝ) : EReal)) ((n : ℝ) : EReal)
      = (((∑ r, (y r - (∑ r, y r) / (n : ℝ)) * (y r - (∑ r, y r) / (n : ℝ))) / (n : ℝ) : ℝ) : EReal) := by
  show Ideal.div (∑ r, (((y r : ℝ) : EReal) - Ideal.div (∑ r, ((y r : ℝ) : EReal)) _) * (((y r : ℝ) : EReal) - Ideal.div (∑ r, ((y r : ℝ) : EReal)) _)) _ = _
  rw [mean_coe y hn]
  have h2 : (∑ r, (((y r : ℝ) : EReal) - (((∑ r, y r) / (n : ℝ) : ℝ) : EReal)) * (((y r : ℝ) : EReal) - (((∑ r, y r) / (n : ℝ) : ℝ) : EReal)))
      = (((∑ r, (y r - (∑ r, y r) / (n : ℝ)) * (y r - (∑ r, y r) / (n : ℝ)) : ℝ)) : EReal) := by
    rw [coe_sum]; exact Finset.sum_congr rfl fun r _ => by rw [← EReal.coe_sub, ← EReal.coe_mul]
  rw [h2, div_coe_coe _ hn]

end Coe

variable {n : Nat} {x : Fin n → EReal} {D : EReal}

/-- Finite values are the coercions of their real parts, as a function. -/
theorem eq_coe_toReal (hx : ∀ r, IsFin (x r)) : x = fun r => (((x r).toReal : ℝ) : EReal) :=
  funext fun r => (hx r).coe_toReal.symm

/-- THE variance identity: the kernel's form and the reference's are one value at finite inputs. -/
theorem var_eq (hn : (n : ℝ) ≠ 0) (hx : ∀ r, IsFin (x r)) (hD : D = ((n : ℝ) : EReal)) : varK x D = varR x D := by
  subst hD
  rw [eq_coe_toReal hx, varK_coe _ hn, varR_coe _ hn, real_var_eq _ hn]

/-- The reference's variance is nonnegative. -/
theorem varR_nonneg (hn : (n : ℝ) ≠ 0) (hx : ∀ r, IsFin (x r)) (hD : D = ((n : ℝ) : EReal)) : 0 ≤ varR x D := by
  subst hD
  rw [eq_coe_toReal hx, varR_coe _ hn]
  exact EReal.coe_nonneg.mpr (real_varR_nonneg _)

/-- The reference's variance is finite. -/
theorem varR_fin (hn : (n : ℝ) ≠ 0) (hx : ∀ r, IsFin (x r)) (hD : D = ((n : ℝ) : EReal)) : IsFin (varR x D) := by
  subst hD
  rw [eq_coe_toReal hx, varR_coe _ hn]
  exact isFin_coe _

/-- So is the kernel's, and it is nonnegative: it is the same value. -/
theorem varK_nonneg (hn : (n : ℝ) ≠ 0) (hx : ∀ r, IsFin (x r)) (hD : D = ((n : ℝ) : EReal)) : 0 ≤ varK x D := by
  rw [var_eq hn hx hD]; exact varR_nonneg hn hx hD

theorem varK_fin (hn : (n : ℝ) ≠ 0) (hx : ∀ r, IsFin (x r)) (hD : D = ((n : ℝ) : EReal)) : IsFin (varK x D) := by
  rw [var_eq hn hx hD]; exact varR_fin hn hx hD

/-- The mean is finite. -/
theorem mean_fin (hn : (n : ℝ) ≠ 0) (hx : ∀ r, IsFin (x r)) (hD : D = ((n : ℝ) : EReal)) :
    IsFin (Ideal.div (∑ r, x r) D) := by
  subst hD
  rw [eq_coe_toReal hx, mean_coe _ hn]
  exact isFin_coe _

/-! ### At fifty thousand rows, the divisor spelled as the program's literal `50000.0` -/

theorem n50000_ne : ((50000 : Nat) : ℝ) ≠ 0 := by norm_num

theorem D50000 : Ideal.ofBits .f32 0x47435000#32 = (((50000 : Nat) : ℝ) : EReal) := by
  rw [Cert.LibConsts.ofBits_50000]; norm_num

variable {z : Fin 50000 → EReal}

theorem var_eq_50000 (hz : ∀ r, IsFin (z r)) :
    Ideal.div (∑ r, z r * z r) (Ideal.ofBits .f32 0x47435000#32)
        - (Ideal.div (∑ r, z r) (Ideal.ofBits .f32 0x47435000#32)) * (Ideal.div (∑ r, z r) (Ideal.ofBits .f32 0x47435000#32))
      = Ideal.div (∑ r, (z r - Ideal.div (∑ r, z r) (Ideal.ofBits .f32 0x47435000#32))
          * (z r - Ideal.div (∑ r, z r) (Ideal.ofBits .f32 0x47435000#32))) (Ideal.ofBits .f32 0x47435000#32) :=
  var_eq n50000_ne hz D50000

theorem varR_nonneg_50000 (hz : ∀ r, IsFin (z r)) :
    0 ≤ Ideal.div (∑ r, (z r - Ideal.div (∑ r, z r) (Ideal.ofBits .f32 0x47435000#32))
          * (z r - Ideal.div (∑ r, z r) (Ideal.ofBits .f32 0x47435000#32))) (Ideal.ofBits .f32 0x47435000#32) :=
  varR_nonneg n50000_ne hz D50000

theorem varR_fin_50000 (hz : ∀ r, IsFin (z r)) :
    IsFin (Ideal.div (∑ r, (z r - Ideal.div (∑ r, z r) (Ideal.ofBits .f32 0x47435000#32))
          * (z r - Ideal.div (∑ r, z r) (Ideal.ofBits .f32 0x47435000#32))) (Ideal.ofBits .f32 0x47435000#32)) :=
  varR_fin n50000_ne hz D50000

theorem mean_fin_50000 (hz : ∀ r, IsFin (z r)) : IsFin (Ideal.div (∑ r, z r) (Ideal.ofBits .f32 0x47435000#32)) :=
  mean_fin n50000_ne hz D50000

end Cert.LibBnVar
-- ==== Proof.LibVarTriple.lean ====
/- The variance identity over a triple sum. For finite values `g k l m` indexed by `Fin c × Fin d × Fin e`, with
   `n = c · d · e ≠ 0` and `D` the extended real `n`:
       max (SS / D − (S / D)², 0) = (∑ (g − S / D)²) / D,      S = ∑ g,  SS = ∑ g².
   The triples are counted by `Fin n`, along which both sides become the one-index forms of the variance identity
   (mean of squares minus squared mean = mean squared deviation); the common value is nonnegative, so the maximum with
   zero changes nothing. Also here: the f32 word of `524288.0` denotes the real `524288 = 32 · 128 · 128`. -/
import proofs.«148139_j79886391705784_1_alg».proof.Proof.LibFinite
import proofs.«148139_j79886391705784_1_alg».proof.Proof.LibConsts
import proofs.«148139_j79886391705784_1_alg».proof.Proof.LibBnVar
import Mathlib.Data.Fintype.BigOperators
import Mathlib.Logic.Equiv.Fin.Basic

namespace Cert.LibVarTriple

open Idealize.ShloMosaic
open Cert.LibFinite Cert.LibBnVar
open scoped BigOperators

/-- `524288.0` (exponent `146`, fraction `0`) denotes the real `524288`. -/
theorem ofBits_count : Ideal.ofBits .f32 0x49000000#32 = (((524288 : Nat) : ℝ) : EReal) := by
  simp [Ideal.ofBits, Ideal.ieee, -EReal.coe_mul]; norm_num

theorem count_ne : ((524288 : Nat) : ℝ) ≠ 0 := by norm_num

section Triple

variable {c d e : Nat}

/-- A triple sum is the sum over the triples. -/
theorem sum_triple (f : Fin c → Fin d → Fin e → EReal) :
    ∑ k, ∑ l, ∑ m, f k l m = ∑ t : Fin c × Fin d × Fin e, f t.1 t.2.1 t.2.2 := by
  rw [Fintype.sum_prod_type]
  refine Finset.sum_congr rfl fun k _ => ?_
  rw [Fintype.sum_prod_type]

/-- A triple sum counted along any numbering of the triples by `Fin n`. -/
theorem sum_triple_fin {n : Nat} (φ : Fin c × Fin d × Fin e ≃ Fin n) (f : Fin c → Fin d → Fin e → EReal) :
    ∑ k, ∑ l, ∑ m, f k l m = ∑ r : Fin n, f (φ.symm r).1 (φ.symm r).2.1 (φ.symm r).2.2 := by
  rw [sum_triple]
  exact (Equiv.sum_comp φ.symm fun t => f t.1 t.2.1 t.2.2).symm

/-- THE identity over a triple sum, with the kernel's maximum with zero. -/
theorem var_eq_triple {n : Nat} (hcard : c * d * e = n) (hn : (n : ℝ) ≠ 0) (g : Fin c → Fin d → Fin e → EReal)
    (hg : ∀ k l m, IsFin (g k l m)) (D : EReal) (hD : D = ((n : ℝ) : EReal)) :
    max (Ideal.div (∑ k, ∑ l, ∑ m, g k l m * g k l m) D
          - Ideal.div (∑ k, ∑ l, ∑ m, g k l m) D * Ideal.div (∑ k, ∑ l, ∑ m, g k l m) D) 0
      = Ideal.div (∑ k, ∑ l, ∑ m, (g k l m - Ideal.div (∑ k, ∑ l, ∑ m, g k l m) D)
          * (g k l m - Ideal.div (∑ k, ∑ l, ∑ m, g k l m) D)) D := by
  have hc : Fintype.card (Fin c × Fin d × Fin e) = n := by
    rw [Fintype.card_prod, Fintype.card_prod, Fintype.card_fin, Fintype.card_fin, Fintype.card_fin, ← hcard, Nat.mul_assoc]
  let φ : Fin c × Fin d × Fin e ≃ Fin n := Fintype.equivFinOfCardEq hc
  -- the values along the numbering
  let x : Fin n → EReal := fun r => g (φ.symm r).1 (φ.symm r).2.1 (φ.symm r).2.2
  have hx : ∀ r, IsFin (x r) := fun r => hg _ _ _
  have hS : ∑ k, ∑ l, ∑ m, g k l m = ∑ r, x r := sum_triple_fin φ g
  have hSS : ∑ k, ∑ l, ∑ m, g k l m * g k l m = ∑ r, x r * x r := sum_triple_fin φ fun k l m => g k l m * g k l m
  have hdev : ∑ k, ∑ l, ∑ m, (g k l m - Ideal.div (∑ r, x r) D) * (g k l m - Ideal.div (∑ r, x r) D)
      = ∑ r, (x r - Ideal.div (∑ r, x r) D) * (x r - Ideal.div (∑ r, x r) D) :=
    sum_triple_fin φ fun k l m => (g k l m - Ideal.div (∑ r, x r) D) * (g k l m - Ideal.div (∑ r, x r) D)
  rw [hSS, hS, hdev]
  have hv : varK x D = varR x D := var_eq hn hx hD
  have h0 : 0 ≤ varK x D := varK_nonneg hn hx hD
  exact (max_eq_left h0).trans hv

end Triple

end Cert.LibVarTriple
-- ==== Proof.Bridge.lean ====
/- The kernel's result and the reference's are one function of finite inputs. Both are the input times a gate of the
   element's batch and channel, the gate one chain of host operations (two dense layers, a rectifier, a logistic
   function: spelled the same in both programs) applied to `y = deviation + mean`. The kernel computes the deviation as
   `sqrt (max (SS/n − (S/n)², 0))` from the channel's sum `S` and sum of squares `SS`, the reference as
   `sqrt ((∑ (x − S/n)²) / n)`; with `n = 32 · 128 · 128` the channel's element count and every element finite these
   agree, by the variance identity. -/
import proofs.«148139_j79886391705784_1_alg».proof.Proof.KHost
import proofs.«148139_j79886391705784_1_alg».proof.Proof.KScale
import proofs.«148139_j79886391705784_1_alg».proof.Proof.RefRead
import proofs.«148139_j79886391705784_1_alg».proof.Proof.LibVarTriple
import proofs.«148139_j79886391705784_1_alg».proof.Proof.LibTrailSums

set_option maxRecDepth 16384

noncomputable section

namespace Cert.Bridge

open Cert.LibFinite Cert.LibTrailSums Cert.LibVarTriple
open Cert.KernelIdeal.HostGlue Cert.ReferenceIdeal.Read Cert.ReferenceIdeal.RefValue
open Idealize.ShloMosaic Idealize.ShloMosaic.ValueIdx

/-- The gate chain is spelled the same in the two programs. -/
theorem gateK_eq_gateR (y : FVec Ideal Cert.KernelIdeal.S4x64 .f32) (x1 : FVec Ideal Cert.KernelIdeal.S4x64 .f32)
    (x2 : FVec Ideal Cert.KernelIdeal.S4 .f32) (x3 : FVec Ideal Cert.KernelIdeal.S64x4 .f32) (x4 : FVec Ideal Cert.KernelIdeal.S64 .f32) :
    gateK y x1 x2 x3 x4 = gateR y x1 x2 x3 x4 := rfl

/-- `y` from the channel sums is the reference's `deviation + mean`, for finite inputs. -/
theorem y_eq (x0 : FVec Ideal Cert.ReferenceIdeal.S4x64x32x128x128 .f32) (hx : ∀ i, IsFin (x0 i))
    (S SS : FVec Ideal Cert.KernelIdeal.S4x64 .f32) (hS : ∀ (p : Fin 4) (q : Fin 64), S (ix2 p q) = trail x0 p q)
    (hSS : ∀ (p : Fin 4) (q : Fin 64), SS (ix2 p q) = trail (fun i => x0 i * x0 i) p q) :
    yK S SS = val_main_v11 (F := Ideal) x0 := by
  funext j
  obtain ⟨p, q, rfl⟩ : ∃ (p : Fin 4) (q : Fin 64), j = ix2 p q :=
    ⟨⟨(j 0).val, (j 0).isLt⟩, ⟨(j 1).val, (j 1).isLt⟩, by funext a; match a with | ⟨0, _⟩ => rfl | ⟨1, _⟩ => rfl⟩
  rw [y_apply, var_apply, mean_apply]
  show (FloatOps.hostUnary (F := Ideal) (φ := .f32) .sqrt
        (max (Ideal.div (SS (ix2 p q)) (Ideal.ofBits .f32 0x49000000#32)
              - Ideal.div (S (ix2 p q)) (Ideal.ofBits .f32 0x49000000#32) * Ideal.div (S (ix2 p q)) (Ideal.ofBits .f32 0x49000000#32))
          (Ideal.ofBits .f32 0x00000000#32)) : EReal)
      + Ideal.div (S (ix2 p q)) (Ideal.ofBits .f32 0x49000000#32) = _
  rw [hS, hSS, Ideal.ofBits_zero_f32, zero_add, zero_add]
  have key := var_eq_triple (c := 32) (d := 128) (e := 128) (n := 524288) (by norm_num) count_ne
    (fun k l m => x0 (ix5 p q k l m)) (fun k l m => hx _) (Ideal.ofBits .f32 0x49000000#32) ofBits_count
  unfold trail
  rw [key]

/-- The two results are one function of finite inputs. -/
theorem out_eq (x0 : FVec Ideal Cert.ReferenceIdeal.S4x64x32x128x128 .f32) (x1 : FVec Ideal Cert.ReferenceIdeal.S4x64 .f32)
    (x2 : FVec Ideal Cert.ReferenceIdeal.S4 .f32) (x3 : FVec Ideal Cert.ReferenceIdeal.S64x4 .f32) (x4 : FVec Ideal Cert.ReferenceIdeal.S64 .f32)
    (hx : ∀ i, IsFin (x0 i)) (S SS : FVec Ideal Cert.KernelIdeal.S4x64 .f32)
    (hS : ∀ (p : Fin 4) (q : Fin 64), S (ix2 p q) = trail x0 p q)
    (hSS : ∀ (p : Fin 4) (q : Fin 64), SS (ix2 p q) = trail (fun i => x0 i * x0 i) p q) :
    Cert.KernelIdeal.Scale.scaled x0 (gateK (yK S SS) x1 x2 x3 x4) = val_main_v29 (F := Ideal) x0 x1 x2 x3 x4 := by
  funext i
  rw [result_apply, ← y_eq x0 hx S SS hS hSS, ← gateK_eq_gateR]
  rfl

end Cert.Bridge

end
-- ==== Proof.Finite.lean ====
/- The precondition read at an element. `finite_inputs` says, of each input array, that every element's absolute value
   is below `+∞`; the five facts are joined by `and`, each an all-reduction over its array. Read here for the first
   input: every element of it is a finite extended real. -/
import proofs.«148139_j79886391705784_1_alg».proof.Proof.Gen.Pre_finite_inputs
import proofs.«148139_j79886391705784_1_alg».proof.Proof.LibFinite
import proofs.«148139_j79886391705784_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.LibFinite
open Idealize.ShloMosaic Idealize.ShloMosaic.ValueIdx

/-- The shape of a scalar has exactly one index. -/
private instance : Subsingleton S_.Idx := ⟨fun a b => funext fun d => d.elim0⟩

/-- The bit pattern `0x7F800000` denotes `+∞`. -/
private theorem inf_top : Ideal.ofBits .f32 0x7F800000#32 = (⊤ : EReal) := by
  simp [Ideal.ofBits, Ideal.ieee]

/-- An extended real whose absolute value `max a (-a)` is strictly below `+∞` is finite: at `⊤` and at `⊥` the
    absolute value is `⊤`, which is not below `⊤`. -/
private theorem isFin_of_abs_lt (a : EReal) (h : Ideal.cmp .olt (max a (-a)) ⊤ = 1#1) : IsFin a := by
  induction a using EReal.rec with
  | bot => simp [Ideal.cmp] at h
  | top => simp [Ideal.cmp] at h
  | coe r => exact isFin_coe r

/-- Under the precondition every element of the first input is finite. -/
theorem x_finite (x0 : FVec Ideal S4x64x32x128x128 .f32) (x1 : FVec Ideal S4x64 .f32) (x2 : FVec Ideal S4 .f32)
    (x3 : FVec Ideal S64x4 .f32) (x4 : FVec Ideal S64 .f32)
    (h : Cert.Pre_finite_inputs.fn (F := Ideal) x0 x1 x2 x3 x4 = (fun _ => 1#1)) (i : S4x64x32x128x128.Idx) :
    IsFin (x0 i) := by
  -- The precondition at its one index is a conjunction of five all-reductions; the first input's is the innermost left.
  have h0 := congrFun h ValueIdx.ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  -- An all-reduction by `and` that is 1 had a 1 at every index: the comparison holds at `i`.
  have h5 := Host.reduce_andi_all _ _ _ _ _ h4 i
  -- At `i` the comparison reads `|x0 i| < +∞`, the broadcast constant being `+∞` at every index.
  have h6 : Ideal.cmp .olt (max (x0 i) (-(x0 i))) ⊤ = 1#1 := by
    rw [← inf_top]; exact h5
  exact isFin_of_abs_lt _ h6

end Cert.Pre_finite_inputs.Finite

end
-- ==== Proof.lean ====
/- A channel-attention layer over x : f32[4, 64, 32, 128, 128]: per batch and channel the mean and the standard
   deviation of x over the three trailing axes, `y = deviation + mean`, a gate `g = logistic (relu (y · w1ᵀ + b1) · w2ᵀ + b2)`,
   and the result `x · g` with the gate broadcast over the trailing axes.

   The kernel program computes it with two kernel regions: the first accumulates, over a grid along the depth axis,
   the per-channel sums `S = ∑ x` and `SS = ∑ x²`; host operations form `sqrt (max (SS/n − (S/n)², 0)) + S/n`
   (`n = 524288`, the channel's element count) and the gate; the second multiplies each block of x by its channels'
   gates. The reference forms the mean as `(∑ x)/n`, the variance as `(∑ (x − mean)²)/n`, the same gate, and the
   product with the broadcast gate. Over the extended reals the two variances agree when every x is finite
   (the variance identity; it is nonnegative, so the kernel's maximum with zero changes nothing), which the
   precondition gives; sums do not depend on their grouping; and the gate chain is the same term in both programs.

   The frames of the two kernel programs are the generated ones, the reference's frame is its generated run;
   the ideal pass rewrote nothing, so nothing is to be preserved. -/
import proofs.«148139_j79886391705784_1_alg».proof.Defs
import proofs.«148139_j79886391705784_1_alg».proof.Proof.Gen.Kernel
import proofs.«148139_j79886391705784_1_alg».proof.Proof.Gen.Kernel.Skeleton
import proofs.«148139_j79886391705784_1_alg».proof.Proof.Gen.Kernel.Launch
import proofs.«148139_j79886391705784_1_alg».proof.Proof.Gen.Kernel.Points
import proofs.«148139_j79886391705784_1_alg».proof.Proof.Gen.Kernel.Frame
import proofs.«148139_j79886391705784_1_alg».proof.Proof.Gen.KernelIdeal
import proofs.«148139_j79886391705784_1_alg».proof.Proof.Gen.KernelIdeal.Skeleton
import proofs.«148139_j79886391705784_1_alg».proof.Proof.Gen.KernelIdeal.Launch
import proofs.«148139_j79886391705784_1_alg».proof.Proof.Gen.KernelIdeal.Points
import proofs.«148139_j79886391705784_1_alg».proof.Proof.Gen.KernelIdeal.Frame
import proofs.«148139_j79886391705784_1_alg».proof.Proof.Gen.ReferenceIdeal
import proofs.«148139_j79886391705784_1_alg».proof.Proof.Gen.ReferenceIdeal.Run
import proofs.«148139_j79886391705784_1_alg».proof.Proof.Gen.ReferenceIdeal.Read
import proofs.«148139_j79886391705784_1_alg».proof.Proof.Gen.Pre_finite_inputs
import proofs.«148139_j79886391705784_1_alg».proof.Proof.KValue
import proofs.«148139_j79886391705784_1_alg».proof.Proof.Bridge
import proofs.«148139_j79886391705784_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates, nothing faulting, its arguments unchanged: the generated frame. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on finite arguments both idealized programs end with the input scaled by the gate of the
    channel sums: the kernel program by its two regions and the host chain between them, the reference by its run read
    at an index and the variance identity. -/
theorem algebraic : Cert.algebraic_KernelIdeal_ReferenceIdeal := by
  intro m ρ m' ρ' hpre hagree
  refine ⟨fun c => Cert.KernelIdeal.Scale.scaled (m ((c : Thread Cert.KernelIdeal.nD Cert.KernelIdeal.τ).loc Cert.KernelIdeal.main_arg0))
      (Cert.KernelIdeal.HostGlue.gateK
        (Cert.KernelIdeal.HostGlue.yK (Cert.KernelIdeal.KValue.sums m ρ c) (Cert.KernelIdeal.KValue.sumsqs m ρ c))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.KValue.W5_v26 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2.1,
      (hagree c).2.2.2.2]
    exact (Cert.Bridge.out_eq _ _ _ _ _ (Cert.Pre_finite_inputs.Finite.x_finite _ _ _ _ _ (hpre c)) _ _
      (Cert.KernelIdeal.KValue.sums_apply m ρ c) (Cert.KernelIdeal.KValue.sumsqs_apply m ρ c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
